-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x32 : Shape := ⟨2, ![100000, 32]⟩
abbrev S64x64 : Shape := ⟨2, ![64, 64]⟩
abbrev S64 : Shape := ⟨1, ![64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg1 : IVec S100000x32 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 4294867296#32
  let main_v39 : IVec S100000x32 32 := broadcastInDim S100000x32 ![] bcast_S_S100000x32 main_c_14
  let main_v40 : IVec S100000x32 1 := cmpi .sge main_arg1 main_v39
  let main_c_15 : IVec S_ 32 := constantI S_ 32 100000#32
  let main_v41 : IVec S100000x32 32 := broadcastInDim S100000x32 ![] bcast_S_S100000x32 main_c_15
  let main_v42 : IVec S100000x32 1 := cmpi .slt main_arg1 main_v41
  let main_v43 : IVec S100000x32 1 := andi main_v40 main_v42
  let main_c_16 : IVec S_ 1 := constantI S_ 1 1#1
  let main_v44 : IVec S_ 1 := (fun x v => Host.reduce IntOp.andi x v reducesTo_S100000x32_S_d0_1 h_S_) main_v43 main_c_16
  let main_v45 : IVec S_ 1 := andi main_v38 main_v44
  main_v45

def fn_part1 {F : FTy → Type} [FloatOps F] (main_arg1 : IVec S100000x32 32) (main_arg5 : FVec F S128x64 .f32) (main_arg6 : FVec F S64 .f32) (main_arg7 : FVec F S128x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_v33

def fn {F : FTy → Type} [FloatOps F] (main_arg0 : FVec F S100000x64 .f32) (main_arg1 : IVec S100000x32 32) (main_arg2 : FVec F S100000x32 .f32) (main_arg3 : FVec F S64x64 .f32) (main_arg4 : FVec F S64 .f32) (main_arg5 : FVec F S128x64 .f32) (main_arg6 : FVec F S64 .f32) (main_arg7 : FVec F S128x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x32 .f32 := Host.absf main_arg2
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S100000x64 : Shape := ⟨2, ![100000, 64]⟩
abbrev S100000x32 : Shape := ⟨2, ![100000, 32]⟩
abbrev S64x64 : Shape := ⟨2, ![64, 64]⟩
abbrev S64 : Shape := ⟨1, ![64]⟩
abbrev S128x64 : Shape := ⟨2, ![128, 64]⟩
abbrev S2000x64 : Shape := ⟨2, ![2000, 64]⟩
abbrev S1x64 : Shape := ⟨2, ![1, 64]⟩
abbrev S_ : Shape := ⟨0, ![]⟩
abbrev S100000x32x1 : Shape := ⟨3, ![100000, 32, 1]⟩
abbrev S1 : Shape := ⟨1, ![1]⟩
abbrev S1x1x1 : Shape := ⟨3, ![1, 1, 1]⟩
abbrev S100000x32x64 : Shape := ⟨3, ![100000, 32, 64]⟩
abbrev S100000x128 : Shape := ⟨2, ![100000, 128]⟩
abbrev S1000x32 : Shape := ⟨2, ![1000, 32]⟩
abbrev S1000x64 : Shape := ⟨2, ![1000, 64]⟩
abbrev S1000x32x64 : Shape := ⟨3, ![1000, 32, 64]⟩
abbrev S1000x128 : Shape := ⟨2, ![1000, 128]⟩
abbrev S1000x32x1 : Shape := ⟨3, ![1000, 32, 1]⟩
abbrev S2000x128 : Shape := ⟨2, ![2000, 128]⟩
abbrev S100000x448 : Shape := ⟨2, ![100000, 448]⟩

abbrev nBuf : Space → Nat
  | .hbm => 85
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S100000x32, .i32⟩
  | .hbm, ⟨2, _⟩ => ⟨S100000x32, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000x64, .f32⟩
  | .hbm, ⟨10, _⟩ => ⟨S_, .i32⟩
  | .hbm, ⟨11, _⟩ => ⟨S100000x32, .i32⟩
  | .hbm, ⟨12, _⟩ => ⟨S100000x32, .i1⟩
  | .hbm, ⟨13, _⟩ => ⟨S_, .i32⟩
  | .hbm, ⟨14, _⟩ => ⟨S100000x32, .i32⟩
  | .hbm, ⟨15, _⟩ => ⟨S100000x32, .i32⟩
  | .hbm, ⟨16, _⟩ => ⟨S100000x32, .i32⟩
  | .hbm, ⟨17, _⟩ => ⟨S100000x32x1, .i32⟩
  | .hbm, ⟨18, _⟩ => ⟨S1, .i32⟩
  | .hbm, ⟨19, _⟩ => ⟨S_, .i32⟩
  | .hbm, ⟨20, _⟩ => ⟨S100000x32x1, .i32⟩
  | .hbm, ⟨21, _⟩ => ⟨S100000x32x1, .i1⟩
  | .hbm, ⟨22, _⟩ => ⟨S1x1x1, .i32⟩
  | .hbm, ⟨23, _⟩ => ⟨S100000x32x1, .i32⟩
  | .hbm, ⟨24, _⟩ => ⟨S100000x32x1, .i1⟩
  | .hbm, ⟨25, _⟩ => ⟨S100000x32x1, .i1⟩
  | .hbm, ⟨26, _⟩ => ⟨S_, .i1⟩
  | .hbm, ⟨27, _⟩ => ⟨S100000x32, .i1⟩
  | .hbm, ⟨28, _⟩ => ⟨S100000x32x64, .f32⟩
  | .hbm, ⟨29, _⟩ => ⟨S100000x32x64, .i1⟩
  | .hbm, ⟨30, _⟩ => ⟨S_, .f32⟩
  | .hbm, ⟨31, _⟩ => ⟨S100000x32x64, .f32⟩
  | .hbm, ⟨32, _⟩ => ⟨S100000x32x64, .f32⟩
  | .hbm, ⟨33, _⟩ => ⟨S100000x128, .f32⟩
  | .hbm, ⟨34, _⟩ => ⟨S100000x64, .f32⟩
  | .hbm, ⟨35, _⟩ => ⟨S_, .i32⟩
  | .hbm, ⟨36, _⟩ => ⟨S100000x32, .i32⟩
  | .hbm, ⟨37, _⟩ => ⟨S100000x32, .i1⟩
  | .hbm, ⟨38, _⟩ => ⟨S_, .i32⟩
  | .hbm, ⟨39, _⟩ => ⟨S100000x32, .i32⟩
  | .hbm, ⟨40, _⟩ => ⟨S100000x32, .i32⟩
  | .hbm, ⟨41, _⟩ => ⟨S100000x32, .i32⟩
  | .hbm, ⟨42, _⟩ => ⟨S100000x32x1, .i32⟩
  | .hbm, ⟨43, _⟩ => ⟨S1, .i32⟩
  | .hbm, ⟨44, _⟩ => ⟨S_, .i32⟩
  | .hbm, ⟨45, _⟩ => ⟨S100000x32x1, .i32⟩
  | .hbm, ⟨46, _⟩ => ⟨S100000x32x1, .i1⟩
  | .hbm, ⟨47, _⟩ => ⟨S1x1x1, .i32⟩
  | .hbm, ⟨48, _⟩ => ⟨S100000x32x1, .i32⟩
  | .hbm, ⟨49, _⟩ => ⟨S100000x32x1, .i1⟩
  | .hbm, ⟨50, _⟩ => ⟨S100000x32x1, .i1⟩
  | .hbm, ⟨51, _⟩ => ⟨S_, .i1⟩
  | .hbm, ⟨52, _⟩ => ⟨S100000x32, .i1⟩
  | .hbm, ⟨53, _⟩ => ⟨S100000x32x64, .f32⟩
  | .hbm, ⟨54, _⟩ => ⟨S100000x32x64, .i1⟩
  | .hbm, ⟨55, _⟩ => ⟨S_, .f32⟩
  | .hbm, ⟨56, _⟩ => ⟨S100000x32x64, .f32⟩
  | .hbm, ⟨57, _⟩ => ⟨S100000x32x64, .f32⟩
  | .hbm, ⟨58, _⟩ => ⟨S100000x128, .f32⟩
  | .hbm, ⟨59, _⟩ => ⟨S100000x64, .f32⟩
  | .hbm, ⟨60, _⟩ => ⟨S_, .i32⟩
  | .hbm, ⟨61, _⟩ => ⟨S100000x32, .i32⟩
  | .hbm, ⟨62, _⟩ => ⟨S100000x32, .i1⟩
  | .hbm, ⟨63, _⟩ => ⟨S_, .i32⟩
  | .hbm, ⟨64, _⟩ => ⟨S100000x32, .i32⟩
  | .hbm, ⟨65, _⟩ => ⟨S100000x32, .i32⟩
  | .hbm, ⟨66, _⟩ => ⟨S100000x32, .i32⟩
  | .hbm, ⟨67, _⟩ => ⟨S100000x32x1, .i32⟩
  | .hbm, ⟨68, _⟩ => ⟨S1, .i32⟩
  | .hbm, ⟨69, _⟩ => ⟨S_, .i32⟩
  | .hbm, ⟨70, _⟩ => ⟨S100000x32x1, .i32⟩
  | .hbm, ⟨71, _⟩ => ⟨S100000x32x1, .i1⟩
  | .hbm, ⟨72, _⟩ => ⟨S1x1x1, .i32⟩
  | .hbm, ⟨73, _⟩ => ⟨S100000x32x1, .i32⟩
  | .hbm, ⟨74, _⟩ => ⟨S100000x32x1, .i1⟩
  | .hbm, ⟨75, _⟩ => ⟨S100000x32x1, .i1⟩
  | .hbm, ⟨76, _⟩ => ⟨S_, .i1⟩
  | .hbm, ⟨77, _⟩ => ⟨S100000x32, .i1⟩
  | .hbm, ⟨78, _⟩ => ⟨S100000x32x64, .f32⟩
  | .hbm, ⟨79, _⟩ => ⟨S100000x32x64, .i1⟩
  | .hbm, ⟨80, _⟩ => ⟨S_, .f32⟩
  | .hbm, ⟨81, _⟩ => ⟨S100000x32x64, .f32⟩
  | .hbm, ⟨82, _⟩ => ⟨S100000x32x64, .f32⟩
  | .hbm, ⟨83, _⟩ => ⟨S100000x128, .f32⟩
  | .hbm, ⟨84, _⟩ => ⟨S100000x448, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S1000x32, .f32⟩
  | .local _ .vmem, ⟨7, _⟩ => ⟨S1000x32, .f32⟩
  | .local _ .vmem, ⟨8, _⟩ => ⟨S1000x64, .f32⟩
  | .local _ .vmem, ⟨9, _⟩ => ⟨S1000x64, .f32⟩
  | .local _ .vmem, ⟨10, _⟩ => ⟨S1000x32x64, .f32⟩
  | .local _ .vmem, ⟨11, _⟩ => ⟨S1000x32x64, .f32⟩
  | .local _ .vmem, ⟨12, _⟩ => ⟨S1000x128, .f32⟩
  | .local _ .vmem, ⟨13, _⟩ => ⟨S1000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S64, .f32⟩
  | .local _ .vmem, ⟨18, _⟩ => ⟨S2000x64, .f32⟩
  | .local _ .vmem, ⟨19, _⟩ => ⟨S2000x64, .f32⟩
  | .local _ .vmem, ⟨20, _⟩ => ⟨S1000x32, .f32⟩
  | .local _ .vmem, ⟨21, _⟩ => ⟨S1000x32, .f32⟩
  | .local _ .vmem, ⟨22, _⟩ => ⟨S1000x64, .f32⟩
  | .local _ .vmem, ⟨23, _⟩ => ⟨S1000x64, .f32⟩
  | .local _ .vmem, ⟨24, _⟩ => ⟨S1000x32x64, .f32⟩
  | .local _ .vmem, ⟨25, _⟩ => ⟨S1000x32x64, .f32⟩
  | .local _ .vmem, ⟨26, _⟩ => ⟨S1000x128, .f32⟩
  | .local _ .vmem, ⟨27, _⟩ => ⟨S1000x128, .f32⟩
  | .local _ .vmem, ⟨28, _⟩ => ⟨S2000x128, .f32⟩
  | .local _ .vmem, ⟨29, _⟩ => ⟨S2000x128, .f32⟩
  | .local _ .vmem, ⟨30, _⟩ => ⟨S128x64, .f32⟩
  | .local _ .vmem, ⟨31, _⟩ => ⟨S64, .f32⟩
  | .local _ .vmem, ⟨32, _⟩ => ⟨S2000x64, .f32⟩
  | .local _ .vmem, ⟨33, _⟩ => ⟨S2000x64, .f32⟩
  | .local _ .vmem, ⟨34, _⟩ => ⟨S1000x32, .f32⟩
  | .local _ .vmem, ⟨35, _⟩ => ⟨S1000x32, .f32⟩
  | .local _ .vmem, ⟨36, _⟩ => ⟨S1000x64, .f32⟩
  | .local _ .vmem, ⟨37, _⟩ => ⟨S1000x64, .f32⟩
  | .local _ .vmem, ⟨38, _⟩ => ⟨S1000x32x64, .f32⟩
  | .local _ .vmem, ⟨39, _⟩ => ⟨S1000x32x64, .f32⟩
  | .local _ .vmem, ⟨40, _⟩ => ⟨S1000x128, .f32⟩
  | .local _ .vmem, ⟨41, _⟩ => ⟨S1000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v7 : Ref sig .tc := ⟨.hbm, 82, rfl⟩
abbrev main_v8 : Ref sig .tc := ⟨.hbm, 83, rfl⟩
abbrev main_v9 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x32x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x32x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x32x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  bcast_S_S100000x32 : S_.BroadcastsInDim S100000x32 (![] : Fin 0 → Fin S100000x32.rank)
  bcast_S100000x32_S100000x32x1_0_1 : S100000x32.BroadcastsInDim S100000x32x1 (![0, 1] : Fin 2 → Fin S100000x32x1.rank)
  bcast_S_S100000x32x1 : S_.BroadcastsInDim S100000x32x1 (![] : Fin 0 → Fin S100000x32x1.rank)
  bcast_S1_S1x1x1_2 : S1.BroadcastsInDim S1x1x1 (![2] : Fin 1 → Fin S1x1x1.rank)
  bcast_S1x1x1_S100000x32x1_0_1_2 : S1x1x1.BroadcastsInDim S100000x32x1 (![0, 1, 2] : Fin 3 → Fin S100000x32x1.rank)
  reducesTo_S100000x32x1_S100000x32_d2 : S100000x32x1.ReducesTo [2] S100000x32
  h_S_ : 0 < S_.numel
  bcast_S100000x32_S100000x32x64_0_1 : S100000x32.BroadcastsInDim S100000x32x64 (![0, 1] : Fin 2 → Fin S100000x32x64.rank)
  bcast_S_S100000x32x64 : S_.BroadcastsInDim S100000x32x64 (![] : Fin 0 → Fin S100000x32x64.rank)
  inb_S1000x32_S1000x32_0_0 : ∀ a, (![0, 0] : Fin 2 → Nat) a + S1000x32.size a ≤ S1000x32.size a
  h_S1000x32 : 0 < S1000x32.numel
  shapeCasts_S1000x32_S1000x32x1 : S1000x32.ShapeCasts S1000x32x1
  inb_S1000x32x64_S1000x32x64_0_0_0 : ∀ a, (![0, 0, 0] : Fin 3 → Nat) a + S1000x32x64.size a ≤ S1000x32x64.size a
  h_S1000x32x64 : 0 < S1000x32x64.numel
  shapeCasts_S1000x32x64_S1000x32x64 : S1000x32x64.ShapeCasts S1000x32x64
  broadcasts_S1000x32x1_S1000x32x64 : S1000x32x1.Broadcasts S1000x32x64
  reduces_S1000x32x64_S1000x64 : S1000x32x64.Reduces [1] S1000x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  concatenates_S1000x64_S1000x64_S1000x128_d1 : Shape.Concatenates [S1000x64, S1000x64] S1000x128 1
  inb_S1000x128_S1000x128_0_0 : ∀ a, (![0, 0] : Fin 2 → Nat) a + S1000x128.size a ≤ S1000x128.size a
  h_S1000x128 : 0 < S1000x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  concatenates_S100000x128_S100000x128_S100000x128_S100000x64_S100000x448_d1 : Shape.Concatenates [S100000x128, S100000x128, S100000x128, S100000x64] S100000x448 1
  dot_S2000x64_S64x64_S2000x64_1_0_0_1_n_n_wf : DotDims.WF S2000x64 S64x64 S2000x64 [1] [0] [0] [1] [] []
  gather_S100000x64_S100000x32x1_S100000x32x64_2_0_n_n_0_2_164_wf : GatherDims.WF S100000x64 S100000x32x1 S100000x32x64 [2] [0] [] [0] [] 2 ![1, 64]
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x32.size a ≤ S100000x32.size a
  hwx1_0 : ∀ i : grid1.Coords, EltTy.bits .f32 = 32 ∨ (Rect.block (s := S100000x32) S1000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S100000x64.size a
  hwx1_1 : ∀ i : grid1.Coords, EltTy.bits .f32 = 32 ∨ (Rect.block (s := S100000x64) S1000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x32x64.size a ≤ S100000x32x64.size a
  hwx1_2 : ∀ i : grid1.Coords, EltTy.bits .f32 = 32 ∨ (Rect.block (s := S100000x32x64) S1000x32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S100000x128.size a
  hwx1_3 : ∀ i : grid1.Coords, EltTy.bits .f32 = 32 ∨ (Rect.block (s := S100000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x32.size a ≤ S100000x32.size a
  hwx3_0 : ∀ i : grid3.Coords, EltTy.bits .f32 = 32 ∨ (Rect.block (s := S100000x32) S1000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S100000x64.size a
  hwx3_1 : ∀ i : grid3.Coords, EltTy.bits .f32 = 32 ∨ (Rect.block (s := S100000x64) S1000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x32x64.size a ≤ S100000x32x64.size a
  hwx3_2 : ∀ i : grid3.Coords, EltTy.bits .f32 = 32 ∨ (Rect.block (s := S100000x32x64) S1000x32x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S100000x128.size a
  hwx3_3 : ∀ i : grid3.Coords, EltTy.bits .f32 = 32 ∨ (Rect.block (s := S100000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S100000x64.size a
  hwx4_3 : ∀ i : grid4.Coords, EltTy.bits .f32 = 32 ∨ (Rect.block (s := S100000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x32.size a ≤ S100000x32.size a
  hwx5_0 : ∀ i : grid5.Coords, EltTy.bits .f32 = 32 ∨ (Rect.block (s := S100000x32) S1000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x64.size a ≤ S100000x64.size a
  hwx5_1 : ∀ i : grid5.Coords, EltTy.bits .f32 = 32 ∨ (Rect.block (s := S100000x64) S1000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x32x64.size a ≤ S100000x32x64.size a
  hwx5_2 : ∀ i : grid5.Coords, EltTy.bits .f32 = 32 ∨ (Rect.block (s := S100000x32x64) S1000x32x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x128.size a ≤ S100000x128.size a
  hwx5_3 : ∀ i : grid5.Coords, EltTy.bits .f32 = 32 ∨ (Rect.block (s := S100000x128) S1000x128.size (cc5_transform_3 i) (hinb5_3 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S100000x32x1_S100000x32x64_2_0_n_n_0_2_164 : GatherDims S100000x64 S100000x32x1 S100000x32x64 where
  offsetDims := [2]
  collapsedSliceDims := [0]
  operandBatchingDims := []
  startIndicesBatchingDims := []
  startIndexMap := [0]
  indexVectorDim := 2
  sliceSizes := ![1, 64]
  wf := gather_S100000x64_S100000x32x1_S100000x32x64_2_0_n_n_0_2_164_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S1000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1000x32x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S1000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1000x32x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v5) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v5) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v6) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg2) S1000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S1000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S1000x32x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v8) S1000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S100000x32 : Shape := ⟨2, ![100000, 32]⟩
abbrev S64x64 : Shape := ⟨2, ![64, 64]⟩
abbrev S64 : Shape := ⟨1, ![64]⟩
abbrev S128x64 : Shape := ⟨2, ![128, 64]⟩
abbrev S1x64 : Shape := ⟨2, ![1, 64]⟩
abbrev S_ : Shape := ⟨0, ![]⟩
abbrev S100000x32x1 : Shape := ⟨3, ![100000, 32, 1]⟩
abbrev S100000x32x64 : Shape := ⟨3, ![100000, 32, 64]⟩
abbrev S100000x128 : Shape := ⟨2, ![100000, 128]⟩
abbrev S1x100000x1x64 : Shape := ⟨4, ![1, 100000, 1, 64]⟩
abbrev S1x100000x2x64 : Shape := ⟨4, ![1, 100000, 2, 64]⟩
abbrev S100000x448 : Shape := ⟨2, ![100000, 448]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x32, .i32⟩
  | .hbm, ⟨2, _⟩ => ⟨S100000x32, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000x64, .f32⟩
  | .hbm, ⟨10, _⟩ => ⟨S1x64, .f32⟩
  | .hbm, ⟨11, _⟩ => ⟨S100000x64, .f32⟩
  | .hbm, ⟨12, _⟩ => ⟨S100000x64, .f32⟩
  | .hbm, ⟨13, _⟩ => ⟨S_, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x32, .f32⟩
  | .hbm, ⟨18, _⟩ => ⟨S100000x32, .f32⟩
  | .hbm, ⟨19, _⟩ => ⟨S100000x32, .f32⟩
  | .hbm, ⟨20, _⟩ => ⟨S100000x32, .f32⟩
  | .hbm, ⟨21, _⟩ => ⟨S100000x32x1, .f32⟩
  | .hbm, ⟨22, _⟩ => ⟨S_, .i32⟩
  | .hbm, ⟨23, _⟩ => ⟨S100000x32, .i32⟩
  | .hbm, ⟨24, _⟩ => ⟨S100000x32, .i1⟩
  | .hbm, ⟨25, _⟩ => ⟨S_, .i32⟩
  | .hbm, ⟨26, _⟩ => ⟨S100000x32, .i32⟩
  | .hbm, ⟨27, _⟩ => ⟨S100000x32, .i32⟩
  | .hbm, ⟨28, _⟩ => ⟨S100000x32, .i32⟩
  | .hbm, ⟨29, _⟩ => ⟨S100000x32x1, .i32⟩
  | .hbm, ⟨30, _⟩ => ⟨S100000x32x64, .f32⟩
  | .hbm, ⟨31, _⟩ => ⟨S100000x32x64, .f32⟩
  | .hbm, ⟨32, _⟩ => ⟨S100000x32x64, .f32⟩
  | .hbm, ⟨33, _⟩ => ⟨S_, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x128, .f32⟩
  | .hbm, ⟨41, _⟩ => ⟨S1x100000x1x64, .f32⟩
  | .hbm, ⟨42, _⟩ => ⟨S1x100000x2x64, .f32⟩
  | .hbm, ⟨43, _⟩ => ⟨S100000x128, .f32⟩
  | .hbm, ⟨44, _⟩ => ⟨S100000x128, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x32, .f32⟩
  | .hbm, ⟨54, _⟩ => ⟨S100000x32, .f32⟩
  | .hbm, ⟨55, _⟩ => ⟨S100000x32, .f32⟩
  | .hbm, ⟨56, _⟩ => ⟨S100000x32, .f32⟩
  | .hbm, ⟨57, _⟩ => ⟨S100000x32x1, .f32⟩
  | .hbm, ⟨58, _⟩ => ⟨S_, .i32⟩
  | .hbm, ⟨59, _⟩ => ⟨S100000x32, .i32⟩
  | .hbm, ⟨60, _⟩ => ⟨S100000x32, .i1⟩
  | .hbm, ⟨61, _⟩ => ⟨S_, .i32⟩
  | .hbm, ⟨62, _⟩ => ⟨S100000x32, .i32⟩
  | .hbm, ⟨63, _⟩ => ⟨S100000x32, .i32⟩
  | .hbm, ⟨64, _⟩ => ⟨S100000x32, .i32⟩
  | .hbm, ⟨65, _⟩ => ⟨S100000x32x1, .i32⟩
  | .hbm, ⟨66, _⟩ => ⟨S100000x32x64, .f32⟩
  | .hbm, ⟨67, _⟩ => ⟨S100000x32x64, .f32⟩
  | .hbm, ⟨68, _⟩ => ⟨S100000x32x64, .f32⟩
  | .hbm, ⟨69, _⟩ => ⟨S_, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x128, .f32⟩
  | .hbm, ⟨77, _⟩ => ⟨S1x100000x1x64, .f32⟩
  | .hbm, ⟨78, _⟩ => ⟨S1x100000x2x64, .f32⟩
  | .hbm, ⟨79, _⟩ => ⟨S100000x128, .f32⟩
  | .hbm, ⟨80, _⟩ => ⟨S100000x128, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x32, .f32⟩
  | .hbm, ⟨90, _⟩ => ⟨S100000x32, .f32⟩
  | .hbm, ⟨91, _⟩ => ⟨S100000x32, .f32⟩
  | .hbm, ⟨92, _⟩ => ⟨S100000x32, .f32⟩
  | .hbm, ⟨93, _⟩ => ⟨S100000x32x1, .f32⟩
  | .hbm, ⟨94, _⟩ => ⟨S_, .i32⟩
  | .hbm, ⟨95, _⟩ => ⟨S100000x32, .i32⟩
  | .hbm, ⟨96, _⟩ => ⟨S100000x32, .i1⟩
  | .hbm, ⟨97, _⟩ => ⟨S_, .i32⟩
  | .hbm, ⟨98, _⟩ => ⟨S100000x32, .i32⟩
  | .hbm, ⟨99, _⟩ => ⟨S100000x32, .i32⟩
  | .hbm, ⟨100, _⟩ => ⟨S100000x32, .i32⟩
  | .hbm, ⟨101, _⟩ => ⟨S100000x32x1, .i32⟩
  | .hbm, ⟨102, _⟩ => ⟨S100000x32x64, .f32⟩
  | .hbm, ⟨103, _⟩ => ⟨S100000x32x64, .f32⟩
  | .hbm, ⟨104, _⟩ => ⟨S100000x32x64, .f32⟩
  | .hbm, ⟨105, _⟩ => ⟨S_, .f32⟩
  | .hbm, ⟨106, _⟩ => ⟨S100000x64, .f32⟩
  | .hbm, ⟨107, _⟩ => ⟨S_, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x128, .f32⟩
  | .hbm, ⟨113, _⟩ => ⟨S1x100000x1x64, .f32⟩
  | .hbm, ⟨114, _⟩ => ⟨S1x100000x2x64, .f32⟩
  | .hbm, ⟨115, _⟩ => ⟨S100000x128, .f32⟩
  | .hbm, ⟨116, _⟩ => ⟨S100000x128, .f32⟩
  | .hbm, ⟨117, _⟩ => ⟨S100000x448, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call2_cst : Ref sig .tc := ⟨.hbm, 85, rfl⟩
abbrev main_call2_v0 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S100000x32 : S_.BroadcastsInDim S100000x32 (![] : Fin 0 → Fin S100000x32.rank)
  bcast_S100000x32_S100000x32x1_0_1 : S100000x32.BroadcastsInDim S100000x32x1 (![0, 1] : Fin 2 → Fin S100000x32x1.rank)
  bcast_S100000x32x1_S100000x32x64_0_1_2 : S100000x32x1.BroadcastsInDim S100000x32x64 (![0, 1, 2] : Fin 3 → Fin S100000x32x64.rank)
  reducesTo_S100000x32x64_S100000x64_d1 : S100000x32x64.ReducesTo [1] S100000x64
  h_S_ : 0 < S_.numel
  concatenates_S100000x64_S100000x64_S100000x128_d1 : Shape.Concatenates [S100000x64, S100000x64] S100000x128 1
  shapeCasts_S100000x64_S1x100000x1x64 : S100000x64.ShapeCasts S1x100000x1x64
  bcast_S1x100000x1x64_S1x100000x2x64_0_1_2_3 : S1x100000x1x64.BroadcastsInDim S1x100000x2x64 (![0, 1, 2, 3] : Fin 4 → Fin S1x100000x2x64.rank)
  shapeCasts_S1x100000x2x64_S100000x128 : S1x100000x2x64.ShapeCasts S100000x128
  concatenates_S100000x128_S100000x128_S100000x128_S100000x64_S100000x448_d1 : Shape.Concatenates [S100000x128, S100000x128, S100000x128, S100000x64] S100000x448 1
  dot_S100000x64_S64x64_S100000x64_1_0_0_1_n_n_wf : DotDims.WF S100000x64 S64x64 S100000x64 [1] [0] [0] [1] [] []
  gather_S100000x64_S100000x32x1_S100000x32x64_2_0_n_n_0_2_164_wf : GatherDims.WF S100000x64 S100000x32x1 S100000x32x64 [2] [0] [] [0] [] 2 ![1, 64]
  dot_S100000x128_S128x64_S100000x64_1_0_0_1_n_n_wf : DotDims.WF S100000x128 S128x64 S100000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S100000x32x1_S100000x32x64_2_0_n_n_0_2_164 : GatherDims S100000x64 S100000x32x1 S100000x32x64 where
  offsetDims := [2]
  collapsedSliceDims := [0]
  operandBatchingDims := []
  startIndicesBatchingDims := []
  startIndexMap := [0]
  indexVectorDim := 2
  sliceSizes := ![1, 64]
  wf := gather_S100000x64_S100000x32x1_S100000x32x64_2_0_n_n_0_2_164_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KI.Dense0.lean ====
/-
  Region 0 of the kernel program (the first dense layer): one grid point takes a block of 2000 rows of the
  64-column feature array, the whole 64×64 weight matrix and the 64-entry bias, and stores into the matching
  2000-row block of the result `max (x·W + b) 0`. Here, at any entry contents `V` of the core's buffers and at any
  float instance: what each window's staging buffer holds around the body, the body's run on whole staging
  buffers, and the obligation the pipeline asks of the body at every grid point. The weight and bias windows are
  fetched at the first point only; their block index never moves, so at every point they still hold their block.
-/
import proofs.«419412_j52785148067992_2_alg».proof.Proof.Gen.KernelIdeal.Launch
import proofs.«419412_j52785148067992_2_alg».proof.Proof.Gen.KernelIdeal.Skeleton
import proofs.«419412_j52785148067992_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window holds the whole bias at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S2000x64 := Rect.unit (s := S2000x64) ![0, 0] S2000x64.size inb_S2000x64_S2000x64_0_0
abbrev rw0 : Rect S64x64 := Rect.unit (s := S64x64) ![0, 0] S64x64.size inb_S64x64_S64x64_0_0
abbrev rb0 : Rect S64 := Rect.unit (s := S64) ![0] S64.size inb_S64_S64_0
abbrev ro0 : Rect S2000x64 := Rect.unit (s := S2000x64) ![0, 0] S2000x64.size inb_S2000x64_S2000x64_0_0

/-- What the body leaves in the result window's buffer: its one store, of the layer's value on the three loads. -/
def out0_3 (x0 : Vec F S2000x64 .f32) (x1 : Vec F S64x64 .f32) (x2 : Vec F S64 .f32) : Vec F S2000x64 .f32 :=
  View.canon [⟨ro0, k0_pay1 (View.ld x0 rx0) (View.ld x1 rw0) (View.ld x2 rb0)⟩]

/-- The one store covers the buffer. -/
theorem cover0_3 (p0 : Vec F S2000x64 .f32) (y : S2000x64.Idx) :
    ∃ pc ∈ ([⟨ro0, p0⟩] : List (View.Piece (Elt F) S2000x64 .f32)), y ∈ pc.1.set :=
  View.cover_of_tiled [⟨ro0, p0⟩] S2000x64.size (by rfl) y

set_option maxHeartbeats 1000000 in
/-- The body on whole staging buffers: the three inputs are left as read, the result buffer ends at `out0_3` of them. -/
theorem sound_kernel0 (c : Dev nD) (E : Set ℕ) (i : grid0.Coords)
    (arg1 : Memref sig .tc .vmem S2000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S2000x64 .f32) (harg4 : arg4.IsWhole)
    (x0 : Vec F S2000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0 on core `c`: the arrays as the region finds them; after the body each input's buffer
    at its block and the result's at `out0_3` of the input blocks; the rest of the core untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rgn

end
-- ==== Proof.KI.Knn1.lean ====
/-
  Region 1 of the kernel program (the first neighbour reduction): one grid point takes 1000 rows of the squared
  distances (1000×32), of the layer's features (1000×64) and of the gathered neighbour features (1000×32×64), and
  stores the 1000×128 block whose left half is the mean over the 32 neighbours of exp(−10·d)·g minus the row's own
  features and whose right half is the maximum over the neighbours of the same products minus the row's features.
  Here, at any entry contents `V` and any float instance: what each staging buffer holds around the body, the
  body's run, and the pipeline's body obligation at every grid point. Every window is fetched at every point.
-/
import proofs.«419412_j52785148067992_2_alg».proof.Proof.Gen.KernelIdeal.Launch
import proofs.«419412_j52785148067992_2_alg».proof.Proof.Gen.KernelIdeal.Skeleton
import proofs.«419412_j52785148067992_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The distance window holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature window holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The gathered-neighbour window holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rd1 : Rect S1000x32 := Rect.unit (s := S1000x32) ![0, 0] S1000x32.size inb_S1000x32_S1000x32_0_0
abbrev rp1 : Rect S1000x64 := Rect.unit (s := S1000x64) ![0, 0] S1000x64.size inb_S1000x64_S1000x64_0_0
abbrev rg1 : Rect S1000x32x64 := Rect.unit (s := S1000x32x64) ![0, 0, 0] S1000x32x64.size inb_S1000x32x64_S1000x32x64_0_0_0
abbrev ro1 : Rect S1000x128 := Rect.unit (s := S1000x128) ![0, 0] S1000x128.size inb_S1000x128_S1000x128_0_0

/-- What the body leaves in the result window's buffer: its one store, of the reduction's value on the three loads
    (distances, gathered neighbours, own features). -/
def out1_3 (x0 : Vec F S1000x32 .f32) (x1 : Vec F S1000x64 .f32) (x2 : Vec F S1000x32x64 .f32) : Vec F S1000x128 .f32 :=
  View.canon [⟨ro1, k1_pay1 (View.ld x0 rd1) (View.ld x2 rg1) (View.ld x1 rp1)⟩]

/-- The one store covers the buffer. -/
theorem cover1_3 (p0 : Vec F S1000x128 .f32) (y : S1000x128.Idx) :
    ∃ pc ∈ ([⟨ro1, p0⟩] : List (View.Piece (Elt F) S1000x128 .f32)), y ∈ pc.1.set :=
  View.cover_of_tiled [⟨ro1, p0⟩] S1000x128.size (by rfl) y

set_option maxHeartbeats 1000000 in
/-- The body on whole staging buffers: the three inputs are left as read, the result buffer ends at `out1_3` of them. -/
theorem sound_kernel1 (c : Dev nD) (E : Set ℕ) (i : grid1.Coords)
    (arg1 : Memref sig .tc .vmem S1000x32 .f32) (harg1 : arg1.IsWhole) (arg2 : Memref sig .tc .vmem S1000x64 .f32) (harg2 : arg2.IsWhole)
    (arg3 : Memref sig .tc .vmem S1000x32x64 .f32) (harg3 : arg3.IsWhole) (arg4 : Memref sig .tc .vmem S1000x128 .f32) (harg4 : arg4.IsWhole)
    (x0 : Vec F S1000x32 .f32) (x1 : Vec F S1000x64 .f32) (x2 : Vec F S1000x32x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__knn_reduce_kernel i arg1 harg1 arg2 harg2 arg3 harg3 arg4 harg4) K := by
  simp only [cc1__knn_reduce_kernel_eq_skeleton]; unfold cc1__knn_reduce_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of region 1 on core `c`: the arrays as the region finds them; after the body each input's buffer
    at its block and the result's at `out1_3` of the input blocks; the rest of the core untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rgn

end
-- ==== Proof.KI.Fold.lean ====
/-
  The contents of a core's buffers between the ten items of the kernel program's @main: region 0 (dense), the
  first gather stretch, regions 1 (neighbour reduction) and 2 (dense), the second gather stretch, regions 3 and 4,
  the third gather stretch, region 5, and the final concatenation. A host stretch changes the buffers as its
  operations say; a region leaves its result array at what its grid points' write-backs fold to and every other
  buffer as it found it. Each region's entry and exit contents get a name of their own, and each pipeline's proof
  data is taken at its region's entry contents.
-/
import proofs.«419412_j52785148067992_2_alg».proof.Proof.KI.Dense0
import proofs.«419412_j52785148067992_2_alg».proof.Proof.KI.Knn1
import proofs.«419412_j52785148067992_2_alg».proof.Proof.KI.Dense2
import proofs.«419412_j52785148067992_2_alg».proof.Proof.KI.Knn3
import proofs.«419412_j52785148067992_2_alg».proof.Proof.KI.Dense4
import proofs.«419412_j52785148067992_2_alg».proof.Proof.KI.Knn5
import proofs.«419412_j52785148067992_2_alg».proof.Proof.Gen.KernelIdeal.Regions

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 0: entered from the launch contents -/

/-- The launch contents. -/
abbrev Win0 : Dev nD → Valuation τ sig (Elt F) := fun c b => m (c, b)
abbrev Vin0 : (c : Dev nD) → (b : Ref sig .tc) → Buf (Elt F) ((c : Thread nD τ).loc b) := fun c b => Win0 m c b
/-- After region 0: its arrays at what the pipeline leaves, every other buffer as entered. -/
def Wout0 (c : Dev nD) : Valuation τ sig (Elt F) :=
  Pipeline.withArrays spec0 c (Win0 m c) fun w => (dat0 (Vin0 m) c).arrAt w cfg0.N
abbrev Vout0 : (c : Dev nD) → (b : Ref sig .tc) → Buf (Elt F) ((c : Thread nD τ).loc b) := fun c b => Wout0 m c b

/-! ## Region 1: entered after the first gather stretch -/

abbrev Win1 : Dev nD → Valuation τ sig (Elt F) := fun c => StableHlo.after hostOps1 (Wout0 m c)
abbrev Vin1 : (c : Dev nD) → (b : Ref sig .tc) → Buf (Elt F) ((c : Thread nD τ).loc b) := fun c b => Win1 m c b
def Wout1 (c : Dev nD) : Valuation τ sig (Elt F) :=
  Pipeline.withArrays spec1 c (Win1 m c) fun w => (dat1 (Vin1 m) c).arrAt w cfg1.N
abbrev Vout1 : (c : Dev nD) → (b : Ref sig .tc) → Buf (Elt F) ((c : Thread nD τ).loc b) := fun c b => Wout1 m c b

/-! ## Region 2: entered where region 1 ends -/

abbrev Win2 : Dev nD → Valuation τ sig (Elt F) := fun c => Wout1 m c
abbrev Vin2 : (c : Dev nD) → (b : Ref sig .tc) → Buf (Elt F) ((c : Thread nD τ).loc b) := fun c b => Win2 m c b
def Wout2 (c : Dev nD) : Valuation τ sig (Elt F) :=
  Pipeline.withArrays spec2 c (Win2 m c) fun w => (dat2 (Vin2 m) c).arrAt w cfg2.N
abbrev Vout2 : (c : Dev nD) → (b : Ref sig .tc) → Buf (Elt F) ((c : Thread nD τ).loc b) := fun c b => Wout2 m c b

/-! ## Region 3: entered after the second gather stretch -/

abbrev Win3 : Dev nD → Valuation τ sig (Elt F) := fun c => StableHlo.after hostOps3 (Wout2 m c)
abbrev Vin3 : (c : Dev nD) → (b : Ref sig .tc) → Buf (Elt F) ((c : Thread nD τ).loc b) := fun c b => Win3 m c b
def Wout3 (c : Dev nD) : Valuation τ sig (Elt F) :=
  Pipeline.withArrays spec3 c (Win3 m c) fun w => (dat3 (Vin3 m) c).arrAt w cfg3.N
abbrev Vout3 : (c : Dev nD) → (b : Ref sig .tc) → Buf (Elt F) ((c : Thread nD τ).loc b) := fun c b => Wout3 m c b

/-! ## Region 4: entered where region 3 ends -/

abbrev Win4 : Dev nD → Valuation τ sig (Elt F) := fun c => Wout3 m c
abbrev Vin4 : (c : Dev nD) → (b : Ref sig .tc) → Buf (Elt F) ((c : Thread nD τ).loc b) := fun c b => Win4 m c b
def Wout4 (c : Dev nD) : Valuation τ sig (Elt F) :=
  Pipeline.withArrays spec4 c (Win4 m c) fun w => (dat4 (Vin4 m) c).arrAt w cfg4.N
abbrev Vout4 : (c : Dev nD) → (b : Ref sig .tc) → Buf (Elt F) ((c : Thread nD τ).loc b) := fun c b => Wout4 m c b

/-! ## Region 5: entered after the third gather stretch -/

abbrev Win5 : Dev nD → Valuation τ sig (Elt F) := fun c => StableHlo.after hostOps5 (Wout4 m c)
abbrev Vin5 : (c : Dev nD) → (b : Ref sig .tc) → Buf (Elt F) ((c : Thread nD τ).loc b) := fun c b => Win5 m c b
def Wout5 (c : Dev nD) : Valuation τ sig (Elt F) :=
  Pipeline.withArrays spec5 c (Win5 m c) fun w => (dat5 (Vin5 m) c).arrAt w cfg5.N
abbrev Vout5 : (c : Dev nD) → (b : Ref sig .tc) → Buf (Elt F) ((c : Thread nD τ).loc b) := fun c b => Wout5 m c b

/-- After the final concatenation: the contents @main returns with. -/
abbrev Wend : Dev nD → Valuation τ sig (Elt F) := fun c => StableHlo.after hostOps6 (Wout5 m c)

/-! ## Every pipeline's proof data, at its region's entry contents -/

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Rgn

end
-- ==== Proof.KI.Reg0.lean ====
/-
  Region 0 as one item of @main. Entered with every buffer of the core at the region's entry contents, it
  leaves them at its exit contents: the region's four arrays are split out of the core's buffers, the pipeline runs
  over them with the body obligation of the region's proof data, and they are put back, the result array at what
  the grid points' write-backs fold to and the inputs as they were. The generator register goes into the
  pipeline's invariant and comes back; the core owes nothing before or after; the kernel has no semaphore of its own.
-/
import proofs.«419412_j52785148067992_2_alg».proof.Proof.KI.Fold

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem Wout0_arr (c : Dev nD) (w : Fin cfg0.W) :
    Wout0 m c (Proc.devRef .tc (Pipeline.arrRef spec0 w)) = (dat0 (Vin0 m) c).arrAt w cfg0.N := by
  unfold Wout0; exact Pipeline.withArrays_arr spec0 launch0.win.arr_inj c _ _ w
/-- and every other buffer what it held at entry. -/
theorem Wout0_of_ne (c : Dev nD) (b : Ref sig .tc) (hb : ∀ w, Pipeline.arrRef spec0 w ≠ b) :
    Wout0 m c (Proc.devRef .tc b) = Win0 m c (Proc.devRef .tc b) := by
  unfold Wout0; exact Pipeline.withArrays_of_ne spec0 c _ _ b hb
theorem hF0 (c : Dev nD) (w : Fin cfg0.W) : (dat0 (Vin0 m) c).arrAt w cfg0.N = Vout0 m c (Pipeline.arrRef spec0 w) :=
  (Wout0_arr m c w).symm
theorem hrest0 (c : Dev nD) : ∀ b, b ∉ Finset.univ.image (Pipeline.arrRef spec0) → Vout0 m c b = Vin0 m c b :=
  fun b hb => Wout0_of_ne m c b fun w e => hb (Finset.mem_image.mpr ⟨w, Finset.mem_univ _, e⟩)

set_option backward.isDefEq.respectTransparency.types false in
/-- Region 0 over the thread state "every unscoped buffer at the named contents, the generator register at some
    state, nothing owed". -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Win0 m c) ∗ R c)
  post c := iprop(StableHlo.held (c : Thread nD τ) (Pipeline.ucRefs τ sig) (Wout0 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rgn

end
-- ==== Proof.KI.Run.lean ====
/-
  The kernel program's run. @main is ten items in a row — region 0, the first gather stretch, regions 1 and 2, the
  second gather stretch, regions 3 and 4, the third gather stretch, region 5, the final concatenation — each entered
  with every buffer of the core at the contents the item before left. So every weakly fair execution terminates
  without a fault, and at the end every unscoped buffer holds the last item's exit contents. No item writes an
  argument array (a region reads it through an input window, whose write-backs are none), so each argument ends
  at its launch contents: the frame.
-/
import proofs.«419412_j52785148067992_2_alg».proof.Proof.KI.Reg0
import proofs.«419412_j52785148067992_2_alg».proof.Proof.KI.Reg1
import proofs.«419412_j52785148067992_2_alg».proof.Proof.KI.Reg2
import proofs.«419412_j52785148067992_2_alg».proof.Proof.KI.Reg3
import proofs.«419412_j52785148067992_2_alg».proof.Proof.KI.Reg4
import proofs.«419412_j52785148067992_2_alg».proof.Proof.KI.Reg5

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each item leaves unchanged -/

/-- Region 0 changes only its result array `main_v0`: an input array ends as entered (its write-backs are none), any other buffer is untouched. -/
theorem Wout0_keep (c : Dev nD) (r : Ref sig .tc) (hr : r ≠ main_v0) :
    Wout0 m c (Proc.devRef .tc r) = Win0 m c (Proc.devRef .tc r) := by
  by_cases h : ∃ w, Pipeline.arrRef spec0 w = r
  · obtain ⟨w, rfl⟩ := h
    have hw : (cfg0.win w).isOut = false := by
      revert hr; revert w; decide
    exact (Wout0_arr m c w).trans (((dat0 (Vin0 m) c).arrAt_in w hw _).trans (A_eq0 (Vin0 m) c w))
  · exact Wout0_of_ne m c r fun w e => h ⟨w, e⟩

/-- Region 1 changes only its result array `main_v2`: an input array ends as entered (its write-backs are none), any other buffer is untouched. -/
theorem Wout1_keep (c : Dev nD) (r : Ref sig .tc) (hr : r ≠ main_v2) :
    Wout1 m c (Proc.devRef .tc r) = Win1 m c (Proc.devRef .tc r) := by
  by_cases h : ∃ w, Pipeline.arrRef spec1 w = r
  · obtain ⟨w, rfl⟩ := h
    have hw : (cfg1.win w).isOut = false := by
      revert hr; revert w; decide
    exact (Wout1_arr m c w).trans (((dat1 (Vin1 m) c).arrAt_in w hw _).trans (A_eq1 (Vin1 m) c w))
  · exact Wout1_of_ne m c r fun w e => h ⟨w, e⟩

/-- Region 2 changes only its result array `main_v3`: an input array ends as entered (its write-backs are none), any other buffer is untouched. -/
theorem Wout2_keep (c : Dev nD) (r : Ref sig .tc) (hr : r ≠ main_v3) :
    Wout2 m c (Proc.devRef .tc r) = Win2 m c (Proc.devRef .tc r) := by
  by_cases h : ∃ w, Pipeline.arrRef spec2 w = r
  · obtain ⟨w, rfl⟩ := h
    have hw : (cfg2.win w).isOut = false := by
      revert hr; revert w; decide
    exact (Wout2_arr m c w).trans (((dat2 (Vin2 m) c).arrAt_in w hw _).trans (A_eq2 (Vin2 m) c w))
  · exact Wout2_of_ne m c r fun w e => h ⟨w, e⟩

/-- Region 3 changes only its result array `main_v5`: an input array ends as entered (its write-backs are none), any other buffer is untouched. -/
theorem Wout3_keep (c : Dev nD) (r : Ref sig .tc) (hr : r ≠ main_v5) :
    Wout3 m c (Proc.devRef .tc r) = Win3 m c (Proc.devRef .tc r) := by
  by_cases h : ∃ w, Pipeline.arrRef spec3 w = r
  · obtain ⟨w, rfl⟩ := h
    have hw : (cfg3.win w).isOut = false := by
      revert hr; revert w; decide
    exact (Wout3_arr m c w).trans (((dat3 (Vin3 m) c).arrAt_in w hw _).trans (A_eq3 (Vin3 m) c w))
  · exact Wout3_of_ne m c r fun w e => h ⟨w, e⟩

/-- Region 4 changes only its result array `main_v6`: an input array ends as entered (its write-backs are none), any other buffer is untouched. -/
theorem Wout4_keep (c : Dev nD) (r : Ref sig .tc) (hr : r ≠ main_v6) :
    Wout4 m c (Proc.devRef .tc r) = Win4 m c (Proc.devRef .tc r) := by
  by_cases h : ∃ w, Pipeline.arrRef spec4 w = r
  · obtain ⟨w, rfl⟩ := h
    have hw : (cfg4.win w).isOut = false := by
      revert hr; revert w; decide
    exact (Wout4_arr m c w).trans (((dat4 (Vin4 m) c).arrAt_in w hw _).trans (A_eq4 (Vin4 m) c w))
  · exact Wout4_of_ne m c r fun w e => h ⟨w, e⟩

/-- Region 5 changes only its result array `main_v8`: an input array ends as entered (its write-backs are none), any other buffer is untouched. -/
theorem Wout5_keep (c : Dev nD) (r : Ref sig .tc) (hr : r ≠ main_v8) :
    Wout5 m c (Proc.devRef .tc r) = Win5 m c (Proc.devRef .tc r) := by
  by_cases h : ∃ w, Pipeline.arrRef spec5 w = r
  · obtain ⟨w, rfl⟩ := h
    have hw : (cfg5.win w).isOut = false := by
      revert hr; revert w; decide
    exact (Wout5_arr m c w).trans (((dat5 (Vin5 m) c).arrAt_in w hw _).trans (A_eq5 (Vin5 m) c w))
  · exact Wout5_of_ne m c r fun w e => h ⟨w, e⟩

/-- A buffer that no gather stretch, no region's result and not the final concatenation writes ends at its launch contents. -/
theorem Wend_keep (c : Dev nD) (r : Ref sig .tc)
    (h1 : r ∉ hostOps1_W) (h3 : r ∉ hostOps3_W) (h5 : r ∉ hostOps5_W) (h6 : r ∉ hostOps6_W)
    (g0 : r ≠ main_v0) (g1 : r ≠ main_v2) (g2 : r ≠ main_v3) (g3 : r ≠ main_v5) (g4 : r ≠ main_v6) (g5 : r ≠ main_v8) :
    Wend m c (Proc.devRef .tc r) = m ((c : Thread nD τ).loc r) :=
  (StableHlo.after_of_writes_sub hostOps6 _ hostOps6_writes h6).trans <|
  (Wout5_keep m c r g5).trans <|
  (StableHlo.after_of_writes_sub hostOps5 _ hostOps5_writes h5).trans <|
  (Wout4_keep m c r g4).trans <|
  (Wout3_keep m c r g3).trans <|
  (StableHlo.after_of_writes_sub hostOps3 _ hostOps3_writes h3).trans <|
  (Wout2_keep m c r g2).trans <|
  (Wout1_keep m c r g1).trans <|
  (StableHlo.after_of_writes_sub hostOps1 _ hostOps1_writes h1).trans <|
  (Wout0_keep m c r g0)

/-! ## @main as segments, and the launch -/

/-- The last thread state without the `owes`. -/
abbrev Tₙ (c : Dev nD) : sProp 𝕄 := iprop(StableHlo.held (c : Thread nD τ) (Pipeline.ucRefs τ sig) (Wend m c) ∗ ∃ r, prngReg c r)

/-- @main's ten segments in order. -/
abbrev segs : List (Pipeline.Seg (pcfgs (F := F)) adm (pdats m) () defs₀ 𝒱₀ L lv) :=
  [ .region (reg0 m),
    .host (hseg hostOps1 hostOps1_sub hostOps1_fresh (Wout0 m)),
    .region (reg1 m),
    .region (reg2 m),
    .host (hseg hostOps3 hostOps3_sub hostOps3_fresh (Wout2 m)),
    .region (reg3 m),
    .region (reg4 m),
    .host (hseg hostOps5 hostOps5_sub hostOps5_fresh (Wout4 m)),
    .region (reg5 m),
    .host (hseg hostOps6 hostOps6_sub hostOps6_fresh (Wout5 m)) ]

/-- @main IS the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer of every core at the last item's exit contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Wend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Win0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (Wend m c) ∗ R c) : sProp 𝕄)
          ⊢ iprop(Tₙ m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (Win0 m c)
        from Pipeline.unscopedBufs_held c (Win0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c => h c)

/-- A memory that holds every unscoped buffer at the last item's exit contents holds each argument as launched. -/
theorem args_kept (mem : (ℓ : Loc nD τ sig) → Buf (Elt F) ℓ)
    (h : ∀ c : Dev nD, ∀ b ∈ Pipeline.ucRefs τ sig, mem (((c : Thread nD τ)).1, b) = Wend m c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h c _ (mem_uc main_arg0 (by decide))).trans (Wend_keep m c main_arg0 (by decide) (by decide) (by decide) (by decide) (by decide) (by decide) (by decide) (by decide) (by decide) (by decide)),
   (h c _ (mem_uc main_arg1 (by decide))).trans (Wend_keep m c main_arg1 (by decide) (by decide) (by decide) (by decide) (by decide) (by decide) (by decide) (by decide) (by decide) (by decide)),
   (h c _ (mem_uc main_arg2 (by decide))).trans (Wend_keep m c main_arg2 (by decide) (by decide) (by decide) (by decide) (by decide) (by decide) (by decide) (by decide) (by decide) (by decide)),
   (h c _ (mem_uc main_arg3 (by decide))).trans (Wend_keep m c main_arg3 (by decide) (by decide) (by decide) (by decide) (by decide) (by decide) (by decide) (by decide) (by decide) (by decide)),
   (h c _ (mem_uc main_arg4 (by decide))).trans (Wend_keep m c main_arg4 (by decide) (by decide) (by decide) (by decide) (by decide) (by decide) (by decide) (by decide) (by decide) (by decide)),
   (h c _ (mem_uc main_arg5 (by decide))).trans (Wend_keep m c main_arg5 (by decide) (by decide) (by decide) (by decide) (by decide) (by decide) (by decide) (by decide) (by decide) (by decide)),
   (h c _ (mem_uc main_arg6 (by decide))).trans (Wend_keep m c main_arg6 (by decide) (by decide) (by decide) (by decide) (by decide) (by decide) (by decide) (by decide) (by decide) (by decide)),
   (h c _ (mem_uc main_arg7 (by decide))).trans (Wend_keep m c main_arg7 (by decide) (by decide) (by decide) (by decide) (by decide) (by decide) (by decide) (by decide) (by decide) (by decide)),
   (h c _ (mem_uc main_arg8 (by decide))).trans (Wend_keep m c main_arg8 (by decide) (by decide) (by decide) (by decide) (by decide) (by decide) (by decide) (by decide) (by decide) (by decide))⟩

/-- The frame: every argument array ends at its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r.2.mem h c) (run_all m ρ)

end Cert.KernelIdeal.Rgn

end
-- ==== Proof.Spec.lean ====
/-
  The reference's layer, stage by stage, as functions of whole arrays (at any float instance): the dense layer
  relu(x·W + b) in its two widths, the neighbour indices made non-negative (a negative index counts from the end),
  the gather of neighbour rows, the neighbour reduction (mean and maximum over the 32 neighbours of
  exp(−10·d)·g, side by side, minus the row's own features repeated twice), and the final concatenation of the
  three layers' outputs with the input. Each is written with exactly the operations the printed reference applies,
  so that the reference's result is their composition by unfolding.
-/
import proofs.«419412_j52785148067992_2_alg».proof.Proof.Gen.ReferenceIdeal

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- max(x, 0), entry by entry. -/
def relu (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The bias row repeated down the 100000 rows. -/
def biasRows (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The first dense layer: relu(x·W + b) with 64 input columns. -/
def dense64 (x : (⟨S100000x64, .f32⟩ : BufTy).Contents (Elt F)) (w : (⟨S64x64, .f32⟩ : BufTy).Contents (Elt F))
    (b : (⟨S64, .f32⟩ : BufTy).Contents (Elt F)) : (⟨S100000x64, .f32⟩ : BufTy).Contents (Elt F) :=
  relu (addf (Host.dotGeneral dot_S100000x64_S64x64_S100000x64_1_0_0_1_n_n none x w) (biasRows b))

/-- A later dense layer: relu(x·W + b) with 128 input columns. -/
def dense128 (x : (⟨S100000x128, .f32⟩ : BufTy).Contents (Elt F)) (w : (⟨S128x64, .f32⟩ : BufTy).Contents (Elt F))
    (b : (⟨S64, .f32⟩ : BufTy).Contents (Elt F)) : (⟨S100000x64, .f32⟩ : BufTy).Contents (Elt F) :=
  relu (addf (Host.dotGeneral dot_S100000x128_S128x64_S100000x64_1_0_0_1_n_n none x w) (biasRows b))

/-- A neighbour index made non-negative: a negative index has the row count 100000 added. -/
def wrapIdx (idx : (⟨S100000x32, .i32⟩ : BufTy).Contents (Elt F)) : (⟨S100000x32, .i32⟩ : BufTy).Contents (Elt F) :=
  select (cmpi .slt idx (broadcastInDim S100000x32 ![] bcast_S_S100000x32 (constantI S_ 32 0#32)))
    (addi idx (broadcastInDim S100000x32 ![] bcast_S_S100000x32 (constantI S_ 32 100000#32))) idx

/-- The wrapped indices as the gather's start indices (one index vector of length one per neighbour). -/
def startIdx (idx : (⟨S100000x32, .i32⟩ : BufTy).Contents (Elt F)) : (⟨S100000x32x1, .i32⟩ : BufTy).Contents (Elt F) :=
  broadcastInDim S100000x32x1 ![0, 1] bcast_S100000x32_S100000x32x1_0_1 (wrapIdx idx)

/-- The neighbours' feature rows: row `idx[r, k]` of `prev` at position `[r, k, ·]`. -/
def neighbours (prev : (⟨S100000x64, .f32⟩ : BufTy).Contents (Elt F)) (idx : (⟨S100000x32, .i32⟩ : BufTy).Contents (Elt F)) :
    (⟨S100000x32x64, .f32⟩ : BufTy).Contents (Elt F) :=
  Host.gather gather_S100000x64_S100000x32x1_S100000x32x64_2_0_n_n_0_2_164 prev (startIdx idx)

/-- The distance weights exp(−(10·d)), repeated along the 64 feature columns. -/
def weights (d : (⟨S100000x32, .f32⟩ : BufTy).Contents (Elt F)) : (⟨S100000x32x64, .f32⟩ : BufTy).Contents (Elt F) :=
  broadcastInDim S100000x32x64 ![0, 1, 2] bcast_S100000x32x1_S100000x32x64_0_1_2
    (broadcastInDim S100000x32x1 ![0, 1] bcast_S100000x32_S100000x32x1_0_1
      (Host.exp (Host.negf (mulf (broadcastInDim S100000x32 ![] bcast_S_S100000x32 (constant S_ .f32 0x41200000#32)) d))))

/-- The row's own features repeated twice side by side (100000×64 to 100000×128). -/
def twice (prev : (⟨S100000x64, .f32⟩ : BufTy).Contents (Elt F)) : (⟨S100000x128, .f32⟩ : BufTy).Contents (Elt F) :=
  shapeCast _ (broadcastInDim S1x100000x2x64 ![0, 1, 2, 3] bcast_S1x100000x1x64_S1x100000x2x64_0_1_2_3
    (shapeCast _ prev shapeCasts_S100000x64_S1x100000x1x64)) shapeCasts_S1x100000x2x64_S100000x128

/-- The neighbour reduction: mean and maximum over the 32 neighbours of weight·neighbour, side by side, minus the
    row's own features repeated twice. -/
def reduceNeighbours (d : (⟨S100000x32, .f32⟩ : BufTy).Contents (Elt F)) (prev : (⟨S100000x64, .f32⟩ : BufTy).Contents (Elt F))
    (g : (⟨S100000x32x64, .f32⟩ : BufTy).Contents (Elt F)) : (⟨S100000x128, .f32⟩ : BufTy).Contents (Elt F) :=
  subf
    (concatenate S100000x128 1
      [⟨S100000x64, Host.divf (Host.reduceAdd (mulf (weights d) g) (constant S_ .f32 0x00000000#32) reducesTo_S100000x32x64_S100000x64_d1 h_S_)
          (broadcastInDim S100000x64 ![] bcast_S_S100000x64 (constant S_ .f32 0x42000000#32))⟩,
       ⟨S100000x64, Host.reduce FloatOps.maximumf (mulf (weights d) g) (constant S_ .f32 0xFF800000#32) reducesTo_S100000x32x64_S100000x64_d1 h_S_⟩]
      concatenates_S100000x64_S100000x64_S100000x128_d1)
    (twice prev)

/-- One whole layer after its dense part `prev`. -/
def layerOut (d : (⟨S100000x32, .f32⟩ : BufTy).Contents (Elt F)) (idx : (⟨S100000x32, .i32⟩ : BufTy).Contents (Elt F))
    (prev : (⟨S100000x64, .f32⟩ : BufTy).Contents (Elt F)) : (⟨S100000x128, .f32⟩ : BufTy).Contents (Elt F) :=
  reduceNeighbours d prev (neighbours prev idx)

/-- The three layers' outputs and the input, side by side. -/
def allFeatures (a b c : (⟨S100000x128, .f32⟩ : BufTy).Contents (Elt F)) (x : (⟨S100000x64, .f32⟩ : BufTy).Contents (Elt F)) :
    (⟨S100000x448, .f32⟩ : BufTy).Contents (Elt F) :=
  concatenate S100000x448 1 [⟨S100000x128, a⟩, ⟨S100000x128, b⟩, ⟨S100000x128, c⟩, ⟨S100000x64, x⟩]
    concatenates_S100000x128_S100000x128_S100000x128_S100000x64_S100000x448_d1

/-- The whole network as a function of the nine arguments. -/
def network (x : (⟨S100000x64, .f32⟩ : BufTy).Contents (Elt F)) (idx : (⟨S100000x32, .i32⟩ : BufTy).Contents (Elt F))
    (d : (⟨S100000x32, .f32⟩ : BufTy).Contents (Elt F))
    (w0 : (⟨S64x64, .f32⟩ : BufTy).Contents (Elt F)) (b0 : (⟨S64, .f32⟩ : BufTy).Contents (Elt F))
    (w1 : (⟨S128x64, .f32⟩ : BufTy).Contents (Elt F)) (b1 : (⟨S64, .f32⟩ : BufTy).Contents (Elt F))
    (w2 : (⟨S128x64, .f32⟩ : BufTy).Contents (Elt F)) (b2 : (⟨S64, .f32⟩ : BufTy).Contents (Elt F)) :
    (⟨S100000x448, .f32⟩ : BufTy).Contents (Elt F) :=
  allFeatures (layerOut d idx (dense64 x w0 b0))
    (layerOut d idx (dense128 (layerOut d idx (dense64 x w0 b0)) w1 b1))
    (layerOut d idx (dense128 (layerOut d idx (dense128 (layerOut d idx (dense64 x w0 b0)) w1 b1)) w2 b2))
    x

end Cert.ReferenceIdeal.Stage

end
-- ==== Proof.Val.Take.lean ====
/-
  The kernel program's neighbour gather as one function of the feature array and the index array: negative
  indices are wrapped by the row count, the rows are gathered, and every position whose wrapped index falls
  outside [0, 99999] is overwritten by the quiet-NaN word. What each of the three host stretches leaves in its
  result buffer is this function of the stretch's operands. When every index lies in [−100000, 100000) the wrapped
  index lies in [0, 99999], no position is overwritten, and the function is the reference's gather of neighbour
  rows. The index range is read off the precondition's last conjunct.
-/
import proofs.«419412_j52785148067992_2_alg».proof.Proof.Gen.KernelIdeal.Launch
import proofs.«419412_j52785148067992_2_alg».proof.Proof.Spec
import proofs.«419412_j52785148067992_2_alg».proof.Defs
import Idealize.ShloMosaic.Lib.StableHlo.Run
import Idealize.ShloMosaic.Lib.ReduceAll
import Idealize.ShloMosaic.Lib.ValueIdx
import Idealize.ShloMosaic.Lib.Affine
import Idealize.ShloMosaic.Lib.WordArith
import Idealize.ShloMosaic.PureOps.Reduce

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-- A neighbour index made non-negative, as the kernel program computes it: a negative index has 100000 added. -/
def wrapped (idx : (⟨S100000x32, .i32⟩ : BufTy).Contents (Elt F)) : (⟨S100000x32x1, .i32⟩ : BufTy).Contents (Elt F) :=
  broadcastInDim S100000x32x1 ![0, 1] bcast_S100000x32_S100000x32x1_0_1
    (select (cmpi .slt idx (broadcastInDim S100000x32 ![] bcast_S_S100000x32 (constantI S_ 32 0#32)))
      (addi idx (broadcastInDim S100000x32 ![] bcast_S_S100000x32 (constantI S_ 32 100000#32))) idx)

/-- The positions whose wrapped index lies in [0, 99999], as a one-bit word per neighbour. -/
def inRange (idx : (⟨S100000x32, .i32⟩ : BufTy).Contents (Elt F)) : (⟨S100000x32, .i1⟩ : BufTy).Contents (Elt F) :=
  Host.reduce IntOp.andi
    (andi (cmpi .sge (wrapped (F := F) idx) (broadcastInDim S100000x32x1 ![] bcast_S_S100000x32x1 (constantI S_ 32 0#32)))
      (cmpi .sle (wrapped (F := F) idx)
        (broadcastInDim S100000x32x1 ![0, 1, 2] bcast_S1x1x1_S100000x32x1_0_1_2
          (broadcastInDim S1x1x1 ![2] bcast_S1_S1x1x1_2 (constantI S1 32 99999#32)))))
    (constantI S_ 1 1#1) reducesTo_S100000x32x1_S100000x32_d2 h_S_

/-- The kernel program's gather stretch as one pure function of the feature array and the index array: wrap the
    negative indices, gather the rows, and overwrite with the quiet-NaN word wherever the wrapped index is outside
    [0, 99999]. -/
def takeFill (prev : (⟨S100000x64, .f32⟩ : BufTy).Contents (Elt F)) (idx : (⟨S100000x32, .i32⟩ : BufTy).Contents (Elt F)) :
    (⟨S100000x32x64, .f32⟩ : BufTy).Contents (Elt F) :=
  select (broadcastInDim S100000x32x64 ![0, 1] bcast_S100000x32_S100000x32x64_0_1 (inRange (F := F) idx))
    (Host.gather gather_S100000x64_S100000x32x1_S100000x32x64_2_0_n_n_0_2_164 prev (wrapped (F := F) idx))
    (broadcastInDim S100000x32x64 ![] bcast_S_S100000x32x64 (constant S_ .f32 0x7FC00000#32))

/-- A value moved to a typed reference's buffer type and back is the value (the two typed references name one buffer). -/
theorem ofBuf_toBuf {T : BufTy} (r : Ref sig .tc) (h h' : r.ty = T) (a a' : r.space ≠ .host) (b b' : r.isScoped = false)
    (v : T.Contents (Elt F)) : (TRef.of r h a b).ofBuf ((TRef.of r h' a' b').toBuf v) = v := by
  subst h; rfl

set_option maxHeartbeats 2000000 in
/-- The first gather stretch leaves `takeFill` of the first dense layer's output and the index argument. -/
theorem hostOps1_v1 (W : Valuation τ sig (Elt F)) :
    StableHlo.after hostOps1 W (Proc.devRef .tc main_v1) = takeFill (W (Proc.devRef .tc main_v0)) (W (Proc.devRef .tc main_arg1)) := by
  have hq : (TRef.of main_arg1 : TRef sig ⟨S100000x32, .i32⟩).ofBuf (W (Proc.devRef .tc main_arg1)) = W (Proc.devRef .tc main_arg1) := rfl
  have hp : (TRef.of main_v0 : TRef sig ⟨S100000x64, .f32⟩).ofBuf (W (Proc.devRef .tc main_v0)) = W (Proc.devRef .tc main_v0) := rfl
  have hr : ∀ v : (⟨S100000x32x64, .f32⟩ : BufTy).Contents (Elt F), (TRef.of main_v1 : TRef sig ⟨S100000x32x64, .f32⟩).toBuf v = v := fun _ => rfl
  show StableHlo.after hostOps1 _ _ = _
  after_results_simp
  simp only [ofBuf_toBuf]
  rw [hq, hp, hr]
  unfold takeFill inRange wrapped
  rfl

set_option maxHeartbeats 2000000 in
/-- The second gather stretch leaves `takeFill` of the second dense layer's output and the index argument. -/
theorem hostOps3_v4 (W : Valuation τ sig (Elt F)) :
    StableHlo.after hostOps3 W (Proc.devRef .tc main_v4) = takeFill (W (Proc.devRef .tc main_v3)) (W (Proc.devRef .tc main_arg1)) := by
  have hq : (TRef.of main_arg1 : TRef sig ⟨S100000x32, .i32⟩).ofBuf (W (Proc.devRef .tc main_arg1)) = W (Proc.devRef .tc main_arg1) := rfl
  have hp : (TRef.of main_v3 : TRef sig ⟨S100000x64, .f32⟩).ofBuf (W (Proc.devRef .tc main_v3)) = W (Proc.devRef .tc main_v3) := rfl
  have hr : ∀ v : (⟨S100000x32x64, .f32⟩ : BufTy).Contents (Elt F), (TRef.of main_v4 : TRef sig ⟨S100000x32x64, .f32⟩).toBuf v = v := fun _ => rfl
  show StableHlo.after hostOps3 _ _ = _
  after_results_simp
  simp only [ofBuf_toBuf]
  rw [hq, hp, hr]
  unfold takeFill inRange wrapped
  rfl

set_option maxHeartbeats 2000000 in
/-- The third gather stretch leaves `takeFill` of the third dense layer's output and the index argument. -/
theorem hostOps5_v7 (W : Valuation τ sig (Elt F)) :
    StableHlo.after hostOps5 W (Proc.devRef .tc main_v7) = takeFill (W (Proc.devRef .tc main_v6)) (W (Proc.devRef .tc main_arg1)) := by
  have hq : (TRef.of main_arg1 : TRef sig ⟨S100000x32, .i32⟩).ofBuf (W (Proc.devRef .tc main_arg1)) = W (Proc.devRef .tc main_arg1) := rfl
  have hp : (TRef.of main_v6 : TRef sig ⟨S100000x64, .f32⟩).ofBuf (W (Proc.devRef .tc main_v6)) = W (Proc.devRef .tc main_v6) := rfl
  have hr : ∀ v : (⟨S100000x32x64, .f32⟩ : BufTy).Contents (Elt F), (TRef.of main_v7 : TRef sig ⟨S100000x32x64, .f32⟩).toBuf v = v := fun _ => rfl
  show StableHlo.after hostOps5 _ _ = _
  after_results_simp
  simp only [ofBuf_toBuf]
  rw [hq, hp, hr]
  unfold takeFill inRange wrapped
  rfl

/-- A fold by `and` over one-bit words that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and` from the constant 1 of an array of one-bit words that are all 1 is 1 everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

/-- A signed 32-bit word in [−100000, 100000), with 100000 added when it is negative, lies in [0, 99999]. -/
theorem wrap_inRange (x : BitVec 32) (h : -100000 ≤ x.toInt ∧ x.toInt < 100000) :
    IntOp.andi
      (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  have h0 : (0#32 : BitVec 32).toInt = 0 := by decide
  have h1 : (100000#32 : BitVec 32).toInt = 100000 := by decide
  have h9 : (99999#32 : BitVec 32).toInt = 99999 := by decide
  rw [IntOp.andi_eq_one, IntOp.cmpi_sge, IntOp.cmpi_sle, h0, h9]
  by_cases hneg : x.toInt < 0
  · have hc : IntOp.cmpi .slt x 0#32 = 1#1 := IntOp.cmpi_slt.2 (by rw [h0]; exact hneg)
    have hs : (IntOp.addi x 100000#32).toInt = x.toInt + 100000 := by
      show (x + 100000#32).toInt = _
      rw [WordArith.toInt_add_of_bounds x 100000#32 (by rw [h1]; omega) (by rw [h1]; omega), h1]
    rw [hc]
    show 0 ≤ (IntOp.addi x 100000#32).toInt ∧ (IntOp.addi x 100000#32).toInt ≤ 99999
    rw [hs]; omega
  · have hc : IntOp.cmpi .slt x 0#32 ≠ 1#1 := fun e => hneg (by have := IntOp.cmpi_slt.1 e; rw [h0] at this; exact this)
    have hsel : Scalar.select (IntOp.cmpi .slt x 0#32) (IntOp.addi x 100000#32) x = x := if_neg hc
    rw [hsel]; omega

/-- With every index in [−100000, 100000) the wrapped index lies in [0, 99999], no position is overwritten, and the
    kernel program's gather is the reference's. -/
theorem takeFill_eq_neighbours (prev : (⟨S100000x64, .f32⟩ : BufTy).Contents (Elt F)) (idx : (⟨S100000x32, .i32⟩ : BufTy).Contents (Elt F))
    (h : ∀ i : S100000x32.Idx, -100000 ≤ (idx i).toInt ∧ (idx i).toInt < 100000) :
    takeFill prev idx = Cert.ReferenceIdeal.Stage.neighbours prev idx := by
  funext j
  have hm : broadcastInDim S100000x32x64 ![0, 1] bcast_S100000x32_S100000x32x64_0_1 (inRange (F := F) idx) j = 1#1 := by
    unfold broadcastInDim inRange
    refine reduce_andi_of_all _ _ _ _ (fun _ => rfl) (fun i => ?_) _
    exact wrap_inRange _ (h _)
  -- the two programs' gather records are the same literal
  have hG : (gather_S100000x64_S100000x32x1_S100000x32x64_2_0_n_n_0_2_164 : GatherDims S100000x64 S100000x32x1 S100000x32x64)
      = Cert.ReferenceIdeal.gather_S100000x64_S100000x32x1_S100000x32x64_2_0_n_n_0_2_164 := rfl
  unfold takeFill
  rw [ValueIdx.select_apply, hm, ValueIdx.select_one, hG]
  unfold Cert.ReferenceIdeal.Stage.neighbours Cert.ReferenceIdeal.Stage.startIdx Cert.ReferenceIdeal.Stage.wrapIdx wrapped
  rfl

/-- The precondition's last conjunct, read at an index: every neighbour index lies in [−100000, 100000). -/
theorem idx_range_of_pre [Cert.Pre_finite_inputs.Facts] (m : (ℓ : Loc nD τ sig) → Buf (Elt Ideal) ℓ) (hpre : Cert.Pre_KernelIdeal m)
    (c : Dev nD) (i : S100000x32.Idx) :
    -100000 ≤ (m ((c.tc : Thread nD τ).loc main_arg1) i).toInt ∧ (m ((c.tc : Thread nD τ).loc main_arg1) i).toInt < 100000 := by
  -- the rank-0 shape has one index
  haveI : Subsingleton Cert.Pre_finite_inputs.S_.Idx := ⟨fun a b => funext fun d => d.elim0⟩
  -- the precondition at the one index of its rank-0 result, its printed chain of conjunctions in view
  have e := congrFun (hpre c) ValueIdx.ix0
  dsimp only [Cert.Pre_finite_inputs.fn, Cert.Pre_finite_inputs.fn_part1, Cert.Pre_finite_inputs.fn_part2] at e
  -- the last conjunct is the reduction by `and` over all [r, k] of (idx ≥ −100000) ∧ (idx < 100000)
  have e2 := (IntOp.andi_eq_one.1 e).2
  have e3 := Host.reduce_andi_all _ _ _ _ _ e2 i
  obtain ⟨ha, hb⟩ := IntOp.andi_eq_one.1 e3
  have ha' : (4294867296#32 : BitVec 32).toInt ≤ (m ((c.tc : Thread nD τ).loc main_arg1) i).toInt := IntOp.cmpi_sge.1 ha
  have hb' : (m ((c.tc : Thread nD τ).loc main_arg1) i).toInt < (100000#32 : BitVec 32).toInt := IntOp.cmpi_slt.1 hb
  have hlo : (4294867296#32 : BitVec 32).toInt = -100000 := by decide
  have hhi : (100000#32 : BitVec 32).toInt = 100000 := by decide
  rw [hlo] at ha'
  rw [hhi] at hb'
  exact ⟨ha', hb'⟩

end Cert.KernelIdeal.Val

end
-- ==== Proof.Val.Dense0.lean ====
/-
  The first dense layer, from blocks to the whole array. Region 0 runs over 50 grid points; point t takes rows
  2000·t … 2000·t + 1999 of the 100000×64 feature array, the whole 64×64 weight matrix and the whole 64-entry bias,
  and writes rows 2000·t … 2000·t + 1999 of the result. At the exact (extended-real) values an entry (p, q) of the
  block the body stores is max (∑ₖ x[p, k]·W[k, q] + b[q]) 0 — the change of float format is the identity there and
  the matrix unit's product into a zero accumulator is the plain sum over the contracted axis — and an entry (r, q)
  of the reference's dense layer is the same expression of row r of the whole array. A row r of the array lies in
  the block of point r / 2000, the blocks of the 50 points tile the array, and so the array the region leaves is the
  reference's dense layer of the arrays the region found.
-/
import proofs.«419412_j52785148067992_2_alg».proof.Proof.KI.Dense0
import proofs.«419412_j52785148067992_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Rgn
open Idealize.ShloMosaic Idealize.ShloMosaic.TcCoe Idealize.SL.Sem Idealize.ShloMosaic.StableHlo
open Idealize.ShloMosaic.Pipeline (Dat)
open Idealize.ShloMosaic.ValueIdx

namespace Dense0

/-- The zero offsets of a whole-buffer rectangle, rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-! ## The body's arithmetic at one entry of a block -/

/-- The operand indices of the block product: the left operand is read at the result's row and the contracted
    coordinate, the right operand at the contracted coordinate and the result's column. -/
theorem klhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem klhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem krhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem krhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The matrix product of a 2000×64 block with the 64×64 weights into the zero accumulator, at entry (p, q): the sum
    over the contracted axis. -/
theorem mm_apply (x : FVec Ideal S2000x64 .bf16) (w : FVec Ideal S64x64 .bf16) (p : Fin 2000) (q : Fin 64) :
    matmul dot_S2000x64_S64x64_S2000x64_1_0_0_1_n_n none x w (constant (F := Ideal) S2000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact klhs_0 _ _
    | ⟨1, _⟩ => exact (klhs_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (krhs_0 _ _).trans hk
    | ⟨1, _⟩ => exact krhs_1 _ _)
  rw [el, er]

/-- The bias as a row repeated down the block, at entry (p, q): the bias at q. -/
theorem bias_apply (b : FVec Ideal S64 .f32) (p : Fin 2000) (q : Fin 64) :
    broadcastTo S2000x64 (shapeCast S1x64 b shapeCasts_S64_S1x64) broadcasts_S1x64_S2000x64 (ix2 p q) = b (ix1 q) :=
  (broadcastTo_1b_ab_apply (shapeCast S1x64 b shapeCasts_S64_S1x64) broadcasts_S1x64_S2000x64 p q).trans
    (shapeCast_a_1a_apply b shapeCasts_S64_S1x64 (0 : Fin 1) q)

/-- What the body stores, at entry (p, q) of its block. -/
theorem pay_apply (x : Vec Ideal S2000x64 .f32) (w : Vec Ideal S64x64 .f32) (b : Vec Ideal S64 .f32) (p : Fin 2000) (q : Fin 64) :
    k0_pay1 (F := Ideal) x w b (ix2 p q) = max (∑ k : Fin 64, x (ix2 p k) * w (ix2 k q) + b (ix1 q)) 0 := by
  unfold k0_pay1
  rw [maximumf_apply, addf_apply, mm_apply, bias_apply, broadcast_apply]
  exact congrArg (fun z => max (∑ k : Fin 64, x (ix2 p k) * w (ix2 k q) + b (ix1 q)) z) Ideal.ofBits_zero_f32

/-! ## The reference's dense layer at one entry of the array -/

/-- The operand indices of the reference's product, as for the block's. -/
theorem rlhs_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem rlhs_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rrhs_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rrhs_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl

/-- The reference's product of the feature array with the weights, at entry (r, q): the sum over the contracted axis. -/
theorem dg_apply (X : FVec Ideal S100000x64 .f32) (W : FVec Ideal S64x64 .f32) (r : Fin 100000) (q : Fin 64) :
    Host.dotGeneral (F := Ideal) Cert.ReferenceIdeal.dot_S100000x64_S64x64_S100000x64_1_0_0_1_n_n none X W (ix2 r q)
      = ∑ k : Fin 64, X (ix2 r k) * W (ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((ValueIdx.contrEquiv1 Cert.ReferenceIdeal.dot_S100000x64_S64x64_S100000x64_1_0_0_1_n_n 64 rfl rfl).symm k) = ix2 r k := funext fun a => Fin.ext (by
    match a with
    | ⟨0, _⟩ => exact rlhs_0 _ _
    | ⟨1, _⟩ => exact (rlhs_1 _ _).trans hk)
  have er : Cert.ReferenceIdeal.dot_S100000x64_S64x64_S100000x64_1_0_0_1_n_n.rhsIdx (ix2 r q) ((ValueIdx.contrEquiv1 Cert.ReferenceIdeal.dot_S100000x64_S64x64_S100000x64_1_0_0_1_n_n 64 rfl rfl).symm k) = ix2 k q := funext fun a => Fin.ext (by
    match a with
    | ⟨0, _⟩ => exact (rrhs_0 _ _).trans hk
    | ⟨1, _⟩ => exact rrhs_1 _ _)
  rw [el, er]

/-- The bias repeated down the 100000 rows, at entry (r, q): the bias at q. -/
theorem biasRows_apply (B : Vec Ideal S64 .f32) (r : Fin 100000) (q : Fin 64) :
    Cert.ReferenceIdeal.Stage.biasRows (F := Ideal) B (ix2 r q) = B (ix1 q) := by
  unfold Cert.ReferenceIdeal.Stage.biasRows
  refine (broadcastInDim_apply _ _ _ (ix2 r q) (ix2 (0 : Fin 1) q) (fun a => ?_)).trans
    (broadcastInDim_apply _ _ B (ix2 (0 : Fin 1) q) (ix1 q) (fun a => ?_))
  · match a with
    | ⟨0, _⟩ => show 0 = if (1 : Nat) = 1 then 0 else r.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-- The reference's dense layer at entry (r, q). -/
theorem dense64_apply (X : Vec Ideal S100000x64 .f32) (W : Vec Ideal S64x64 .f32) (B : Vec Ideal S64 .f32) (r : Fin 100000) (q : Fin 64) :
    Cert.ReferenceIdeal.Stage.dense64 (F := Ideal) X W B (ix2 r q) = max (∑ k : Fin 64, X (ix2 r k) * W (ix2 k q) + B (ix1 q)) 0 := by
  unfold Cert.ReferenceIdeal.Stage.dense64 Cert.ReferenceIdeal.Stage.relu
  rw [maximumf_apply, addf_apply, dg_apply, biasRows_apply]
  refine congrArg (fun z => max (∑ k : Fin 64, X (ix2 r k) * W (ix2 k q) + B (ix1 q)) z) ?_
  exact (broadcastInDim_apply _ _ _ (ix2 r q) ix0 (fun a => a.elim0)).trans Ideal.ofBits_zero_f32

/-! ## A block of the body's result is a block of the reference's dense layer -/

/-- If the feature block is rows 2000·t … of the feature array, and the weight and bias blocks are the whole weight
    and bias arrays, the block the body stores is rows 2000·t … of the reference's dense layer. -/
theorem blk_eq (x : Vec Ideal S2000x64 .f32) (w : Vec Ideal S64x64 .f32) (b : Vec Ideal S64 .f32)
    (X : Vec Ideal S100000x64 .f32) (W : Vec Ideal S64x64 .f32) (B : Vec Ideal S64 .f32) (t : Nat)
    (hx : ∀ (y : S2000x64.Idx) (i : S100000x64.Idx), (i 0).val = 2000 * t + (y 0).val → (i 1).val = (y 1).val → x y = X i)
    (hw : w = W) (hb : b = B)
    (j : S2000x64.Idx) (i : S100000x64.Idx) (hi0 : (i 0).val = 2000 * t + (j 0).val) (hi1 : (i 1).val = (j 1).val) :
    k0_pay1 (F := Ideal) x w b j = Cert.ReferenceIdeal.Stage.dense64 (F := Ideal) X W B i := by
  subst hw hb
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  rw [pay_apply, dense64_apply]
  have hx' : ∀ k : Fin 64, x (ix2 p k) = X (ix2 r k) := fun k => hx (ix2 p k) (ix2 r k) hi0 rfl
  simp only [hx']

/-! ## The windows' blocks -/

/-- The printed index maps over the grid: the feature and result windows are at row-block t, the weight and bias
    windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The feature window's block at point t is rows 2000·t … of the feature array. -/
theorem iblk_x (c : Dev nD) (t : Fin cfg0.N) (y : S2000x64.Idx) (i : S100000x64.Idx)
    (h0 : (i 0).val = 2000 * t.val + (y 0).val) (h1 : (i 1).val = (y 1).val) :
    (iblk0 V c 0 t : Vec Ideal S2000x64 .f32) y = (V c main_arg0 : S100000x64.Idx → Elt Ideal .f32) i := by
  obtain ⟨e0, e1, -⟩ := idx_facts t
  unfold iblk0
  rw [View.read_apply]
  show V c main_arg0 _ = V c main_arg0 i
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 64 + 1 * (y 1).val = (i 1).val; rw [e1, h1]; omega

/-- The weight window's block is the whole weight matrix, at every point. -/
theorem iblk_w (c : Dev nD) (t : Fin cfg0.N) :
    (iblk0 V c 1 t : Vec Ideal S64x64 .f32) = (V c main_arg3 : S64x64.Idx → Elt Ideal .f32) := by
  obtain ⟨-, -, e0, e1, -⟩ := idx_facts t
  funext y
  unfold iblk0
  rw [View.read_apply]
  show V c main_arg3 _ = V c main_arg3 y
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The bias window's block is the whole bias, at every point. -/
theorem iblk_b (c : Dev nD) (t : Fin cfg0.N) :
    (iblk0 V c 2 t : Vec Ideal S64 .f32) = (V c main_arg4 : S64.Idx → Elt Ideal .f32) := by
  obtain ⟨-, -, -, -, e0, -⟩ := idx_facts t
  funext y
  unfold iblk0
  rw [View.read_apply]
  show V c main_arg4 _ = V c main_arg4 y
  congr 1
  funext a
  apply Fin.ext
  match a with
  | ⟨0, _⟩ => show win0_2.index t (0 : Fin 1) * 64 + 1 * (y 0).val = (y 0).val; rw [e0]; omega

/-- What point t writes back is its block of the reference's dense layer of the arrays the region found. -/
theorem flushed_eq (c : Dev nD) (t : Fin cfg0.N) :
    (dat0 (F := Ideal) V c).flushed 3 t = ((cfg0.win 3).blk t).view.read (Elt Ideal)
      (Cert.ReferenceIdeal.Stage.dense64 (F := Ideal) (V c main_arg0) (V c main_arg3) (V c main_arg4)) := by
  show (cfg0.win 3).cut (grid0.coords t) ((dat0 (F := Ideal) V c).after 3 t) = _
  rw [after0_3]
  unfold out0_3
  rw [View.canon_unit_zero hz2]
  simp only [View.ld_unit_zero (S := S2000x64) hz2, View.ld_unit_zero (S := S64x64) hz2, View.ld_unit_zero (S := S64) hz1]
  obtain ⟨-, -, -, -, -, e0, e1⟩ := idx_facts t
  funext j
  rw [View.read_apply]
  exact blk_eq (iblk0 V c 0 t) (iblk0 V c 1 t) (iblk0 V c 2 t) (V c main_arg0) (V c main_arg3) (V c main_arg4) t.val
    (iblk_x V c t) (iblk_w V c t) (iblk_b V c t) j (((cfg0.win 3).blk t).view.emb j)
    (by show win0_3.index t (0 : Fin 2) * 2000 + 1 * (j 0).val = 2000 * t.val + (j 0).val; rw [e0]; omega)
    (by show win0_3.index t (1 : Fin 2) * 64 + 1 * (j 1).val = (j 1).val; rw [e1]; omega)

/-- An index of the result array is in point t's block iff each coordinate is in the block's range on its axis. -/
theorem mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v0).slice (win0_3.rect t)).set ↔ _
  rw [View.set_slice_whole, Rect.mem_set_unit]
  exact Iff.rfl

/-- Every entry of the result array is in some point's block: row r in the block of point r / 2000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, e0, e1⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 64 ≤ (i 1).val ∧ (i 1).val < win0_3.index t (1 : Fin 2) * 64 + 64; rw [e1]; omega

end Dense0

/-- The array region 0 leaves in its result is the reference's first dense layer of the arrays it found. -/
theorem arr0_eq (V : (c : Dev nD) → (b : Ref sig .tc) → Buf (Elt Ideal) ((c : Thread nD τ).loc b)) (c : Dev nD) :
    (dat0 (F := Ideal) V c).arrAt 3 cfg0.N = Cert.ReferenceIdeal.Stage.dense64 (F := Ideal) (V c main_arg0) (V c main_arg3) (V c main_arg4) :=
  (dat0 (F := Ideal) V c).arrAt_eq_of_cover 3 _ (fun t _ => Dense0.flushed_eq V c t) Dense0.cover

end Cert.KernelIdeal.Val

end
-- ==== Proof.Val.Dense2.lean ====
/-
  A later dense layer, from blocks to the whole array. Region 2 runs over 50 grid points; point t takes rows
  2000·t … 2000·t + 1999 of the 100000×128 feature array (the previous layer's output), the whole 128×64 weight matrix
  and the whole 64-entry bias, and writes rows 2000·t … 2000·t + 1999 of the result. At the exact (extended-real)
  values an entry (p, q) of the block the body stores is max (∑ₖ x[p, k]·W[k, q] + b[q]) 0 with k over the 128
  feature columns — the change of float format is the identity there, a cast of a block to its own shape changes
  nothing, and the matrix unit's product into a zero accumulator is the plain sum over the contracted axis — and an
  entry (r, q) of the reference's dense layer is the same expression of row r of the whole array. A row r of the
  array lies in the block of point r / 2000, the blocks of the 50 points tile the array, and so the array the region
  leaves is the reference's dense layer of the arrays the region found.
-/
import proofs.«419412_j52785148067992_2_alg».proof.Proof.KI.Dense2
import proofs.«419412_j52785148067992_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Rgn
open Idealize.ShloMosaic Idealize.ShloMosaic.TcCoe Idealize.SL.Sem Idealize.ShloMosaic.StableHlo
open Idealize.ShloMosaic.Pipeline (Dat)
open Idealize.ShloMosaic.ValueIdx

namespace Dense2

/-- The zero offsets of a whole-buffer rectangle, rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-! ## The body's arithmetic at one entry of a block -/

/-- The operand indices of the block product: the left operand is read at the result's row and the contracted
    coordinate, the right operand at the contracted coordinate and the result's column. -/
theorem klhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem klhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem krhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem krhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The matrix product of a 2000×128 block with the 128×64 weights into the zero accumulator, at entry (p, q): the
    sum over the contracted axis. -/
theorem mm_apply (x : FVec Ideal S2000x128 .bf16) (w : FVec Ideal S128x64 .bf16) (p : Fin 2000) (q : Fin 64) :
    matmul dot_S2000x128_S128x64_S2000x64_1_0_0_1_n_n none x w (constant (F := Ideal) S2000x64 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact klhs_0 _ _
    | ⟨1, _⟩ => exact (klhs_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (krhs_0 _ _).trans hk
    | ⟨1, _⟩ => exact krhs_1 _ _)
  rw [el, er]

/-- The bias as a row repeated down the block, at entry (p, q): the bias at q. -/
theorem bias_apply (b : FVec Ideal S64 .f32) (p : Fin 2000) (q : Fin 64) :
    broadcastTo S2000x64 (shapeCast S1x64 b shapeCasts_S64_S1x64) broadcasts_S1x64_S2000x64 (ix2 p q) = b (ix1 q) :=
  (broadcastTo_1b_ab_apply (shapeCast S1x64 b shapeCasts_S64_S1x64) broadcasts_S1x64_S2000x64 p q).trans
    (shapeCast_a_1a_apply b shapeCasts_S64_S1x64 (0 : Fin 1) q)

/-- What the body stores, at entry (p, q) of its block. -/
theorem pay_apply (x : Vec Ideal S2000x128 .f32) (w : Vec Ideal S128x64 .f32) (b : Vec Ideal S64 .f32) (p : Fin 2000) (q : Fin 64) :
    k2_pay1 (F := Ideal) x w b (ix2 p q) = max (∑ k : Fin 128, x (ix2 p k) * w (ix2 k q) + b (ix1 q)) 0 := by
  unfold k2_pay1
  rw [shapeCast_self x shapeCasts_S2000x128_S2000x128]
  rw [maximumf_apply, addf_apply, mm_apply, bias_apply, broadcast_apply]
  exact congrArg (fun z => max (∑ k : Fin 128, x (ix2 p k) * w (ix2 k q) + b (ix1 q)) z) Ideal.ofBits_zero_f32

/-! ## The reference's dense layer at one entry of the array -/

/-- The operand indices of the reference's product, as for the block's. -/
theorem rlhs_0 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem rlhs_1 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rrhs_0 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rrhs_1 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- The reference's product of the feature array with the weights, at entry (r, q): the sum over the contracted axis. -/
theorem dg_apply (X : FVec Ideal S100000x128 .f32) (W : FVec Ideal S128x64 .f32) (r : Fin 100000) (q : Fin 64) :
    Host.dotGeneral (F := Ideal) Cert.ReferenceIdeal.dot_S100000x128_S128x64_S100000x64_1_0_0_1_n_n none X W (ix2 r q)
      = ∑ k : Fin 128, X (ix2 r k) * W (ix2 k q) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((ValueIdx.contrEquiv1 Cert.ReferenceIdeal.dot_S100000x128_S128x64_S100000x64_1_0_0_1_n_n 128 rfl rfl).symm k) = ix2 r k := funext fun a => Fin.ext (by
    match a with
    | ⟨0, _⟩ => exact rlhs_0 _ _
    | ⟨1, _⟩ => exact (rlhs_1 _ _).trans hk)
  have er : Cert.ReferenceIdeal.dot_S100000x128_S128x64_S100000x64_1_0_0_1_n_n.rhsIdx (ix2 r q) ((ValueIdx.contrEquiv1 Cert.ReferenceIdeal.dot_S100000x128_S128x64_S100000x64_1_0_0_1_n_n 128 rfl rfl).symm k) = ix2 k q := funext fun a => Fin.ext (by
    match a with
    | ⟨0, _⟩ => exact (rrhs_0 _ _).trans hk
    | ⟨1, _⟩ => exact rrhs_1 _ _)
  rw [el, er]

/-- The bias repeated down the 100000 rows, at entry (r, q): the bias at q. -/
theorem biasRows_apply (B : Vec Ideal S64 .f32) (r : Fin 100000) (q : Fin 64) :
    Cert.ReferenceIdeal.Stage.biasRows (F := Ideal) B (ix2 r q) = B (ix1 q) := by
  unfold Cert.ReferenceIdeal.Stage.biasRows
  refine (broadcastInDim_apply _ _ _ (ix2 r q) (ix2 (0 : Fin 1) q) (fun a => ?_)).trans
    (broadcastInDim_apply _ _ B (ix2 (0 : Fin 1) q) (ix1 q) (fun a => ?_))
  · match a with
    | ⟨0, _⟩ => show 0 = if (1 : Nat) = 1 then 0 else r.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-- The reference's dense layer at entry (r, q). -/
theorem dense128_apply (X : Vec Ideal S100000x128 .f32) (W : Vec Ideal S128x64 .f32) (B : Vec Ideal S64 .f32) (r : Fin 100000) (q : Fin 64) :
    Cert.ReferenceIdeal.Stage.dense128 (F := Ideal) X W B (ix2 r q) = max (∑ k : Fin 128, X (ix2 r k) * W (ix2 k q) + B (ix1 q)) 0 := by
  unfold Cert.ReferenceIdeal.Stage.dense128 Cert.ReferenceIdeal.Stage.relu
  rw [maximumf_apply, addf_apply, dg_apply, biasRows_apply]
  refine congrArg (fun z => max (∑ k : Fin 128, X (ix2 r k) * W (ix2 k q) + B (ix1 q)) z) ?_
  exact (broadcastInDim_apply _ _ _ (ix2 r q) ix0 (fun a => a.elim0)).trans Ideal.ofBits_zero_f32

/-! ## A block of the body's result is a block of the reference's dense layer -/

/-- If the feature block is rows 2000·t … of the feature array, and the weight and bias blocks are the whole weight
    and bias arrays, the block the body stores is rows 2000·t … of the reference's dense layer. -/
theorem blk_eq (x : Vec Ideal S2000x128 .f32) (w : Vec Ideal S128x64 .f32) (b : Vec Ideal S64 .f32)
    (X : Vec Ideal S100000x128 .f32) (W : Vec Ideal S128x64 .f32) (B : Vec Ideal S64 .f32) (t : Nat)
    (hx : ∀ (y : S2000x128.Idx) (i : S100000x128.Idx), (i 0).val = 2000 * t + (y 0).val → (i 1).val = (y 1).val → x y = X i)
    (hw : w = W) (hb : b = B)
    (j : S2000x64.Idx) (i : S100000x64.Idx) (hi0 : (i 0).val = 2000 * t + (j 0).val) (hi1 : (i 1).val = (j 1).val) :
    k2_pay1 (F := Ideal) x w b j = Cert.ReferenceIdeal.Stage.dense128 (F := Ideal) X W B i := by
  subst hw hb
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  rw [pay_apply, dense128_apply]
  have hx' : ∀ k : Fin 128, x (ix2 p k) = X (ix2 r k) := fun k => hx (ix2 p k) (ix2 r k) hi0 rfl
  simp only [hx']

/-! ## The windows' blocks -/

/-- The printed index maps over the grid: the feature and result windows are at row-block t, the weight and bias
    windows at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The feature window's block at point t is rows 2000·t … of the feature array. -/
theorem iblk_x (c : Dev nD) (t : Fin cfg2.N) (y : S2000x128.Idx) (i : S100000x128.Idx)
    (h0 : (i 0).val = 2000 * t.val + (y 0).val) (h1 : (i 1).val = (y 1).val) :
    (iblk2 V c 0 t : Vec Ideal S2000x128 .f32) y = (V c main_v2 : S100000x128.Idx → Elt Ideal .f32) i := by
  obtain ⟨e0, e1, -⟩ := idx_facts t
  unfold iblk2
  rw [View.read_apply]
  show V c main_v2 _ = V c main_v2 i
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The weight window's block is the whole weight matrix, at every point. -/
theorem iblk_w (c : Dev nD) (t : Fin cfg2.N) :
    (iblk2 V c 1 t : Vec Ideal S128x64 .f32) = (V c main_arg5 : S128x64.Idx → Elt Ideal .f32) := by
  obtain ⟨-, -, e0, e1, -⟩ := idx_facts t
  funext y
  unfold iblk2
  rw [View.read_apply]
  show V c main_arg5 _ = V c main_arg5 y
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

/-- The bias window's block is the whole bias, at every point. -/
theorem iblk_b (c : Dev nD) (t : Fin cfg2.N) :
    (iblk2 V c 2 t : Vec Ideal S64 .f32) = (V c main_arg6 : S64.Idx → Elt Ideal .f32) := by
  obtain ⟨-, -, -, -, e0, -⟩ := idx_facts t
  funext y
  unfold iblk2
  rw [View.read_apply]
  show V c main_arg6 _ = V c main_arg6 y
  congr 1
  funext a
  apply Fin.ext
  match a with
  | ⟨0, _⟩ => show win2_2.index t (0 : Fin 1) * 64 + 1 * (y 0).val = (y 0).val; rw [e0]; omega

/-- What point t writes back is its block of the reference's dense layer of the arrays the region found. -/
theorem flushed_eq (c : Dev nD) (t : Fin cfg2.N) :
    (dat2 (F := Ideal) V c).flushed 3 t = ((cfg2.win 3).blk t).view.read (Elt Ideal)
      (Cert.ReferenceIdeal.Stage.dense128 (F := Ideal) (V c main_v2) (V c main_arg5) (V c main_arg6)) := by
  show (cfg2.win 3).cut (grid2.coords t) ((dat2 (F := Ideal) V c).after 3 t) = _
  rw [after2_3]
  unfold out2_3
  rw [View.canon_unit_zero hz2]
  simp only [View.ld_unit_zero (S := S2000x128) hz2, View.ld_unit_zero (S := S128x64) hz2, View.ld_unit_zero (S := S64) hz1]
  obtain ⟨-, -, -, -, -, e0, e1⟩ := idx_facts t
  funext j
  rw [View.read_apply]
  exact blk_eq (iblk2 V c 0 t) (iblk2 V c 1 t) (iblk2 V c 2 t) (V c main_v2) (V c main_arg5) (V c main_arg6) t.val
    (iblk_x V c t) (iblk_w V c t) (iblk_b V c t) j (((cfg2.win 3).blk t).view.emb j)
    (by show win2_3.index t (0 : Fin 2) * 2000 + 1 * (j 0).val = 2000 * t.val + (j 0).val; rw [e0]; omega)
    (by show win2_3.index t (1 : Fin 2) * 64 + 1 * (j 1).val = (j 1).val; rw [e1]; omega)

/-- An index of the result array is in point t's block iff each coordinate is in the block's range on its axis. -/
theorem mem_blk (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v3).slice (win2_3.rect t)).set ↔ _
  rw [View.set_slice_whole, Rect.mem_set_unit]
  exact Iff.rfl

/-- Every entry of the result array is in some point's block: row r in the block of point r / 2000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, e0, e1⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; rw [e0, ht]; omega
  | ⟨1, _⟩ => show win2_3.index t (1 : Fin 2) * 64 ≤ (i 1).val ∧ (i 1).val < win2_3.index t (1 : Fin 2) * 64 + 64; rw [e1]; omega

end Dense2

/-- The array region 2 leaves in its result is the reference's dense layer of the arrays it found. -/
theorem arr2_eq (V : (c : Dev nD) → (b : Ref sig .tc) → Buf (Elt Ideal) ((c : Thread nD τ).loc b)) (c : Dev nD) :
    (dat2 (F := Ideal) V c).arrAt 3 cfg2.N = Cert.ReferenceIdeal.Stage.dense128 (F := Ideal) (V c main_v2) (V c main_arg5) (V c main_arg6) :=
  (dat2 (F := Ideal) V c).arrAt_eq_of_cover 3 _ (fun t _ => Dense2.flushed_eq V c t) Dense2.cover

end Cert.KernelIdeal.Val

end
-- ==== Proof.Val.KnnLaws.lean ====
/-
  The neighbour reduction, one row at a time. For a row's 32 squared distances d, its 32 gathered neighbour rows g
  (each of 64 features) and its own 64 features prev, the row of 128 results is: in column j < 64 the mean over the
  neighbours k of exp(−(10·d k))·g k j, minus prev j; in column 64 + j the maximum over k of the same products (from
  −∞), minus prev j. Stated here once on the extended reals (`rowVal`), with the two readings that meet in it: a
  kernel body's arithmetic on a block of 1000 rows (`knnPay`, read at a row and a column of the block), and the
  reference's whole-array stage (`Stage.reduceNeighbours`, read at a row and a column of the array). The kernel
  multiplies by the word of −10 and by the word of 1/32 where the reference negates the product with the word of 10
  and divides by the word of 32: on the extended reals these are the same functions.
-/
import proofs.«419412_j52785148067992_2_alg».proof.Proof.Gen.KernelIdeal
import proofs.«419412_j52785148067992_2_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ## The literal words -/

/-- The word of 10.0 denotes the real 10. -/
theorem word_ten : Ideal.ofBits .f32 0x41200000#32 = ((10 : ℝ) : EReal) := by
  simp [Ideal.ofBits, Ideal.ieee, -EReal.coe_mul]; norm_num
/-- The word of −10.0 denotes the real −10. -/
theorem word_neg_ten : Ideal.ofBits .f32 0xC1200000#32 = ((-10 : ℝ) : EReal) := by
  simp [Ideal.ofBits, Ideal.ieee, -EReal.coe_mul]; norm_num
/-- The word of 32.0 denotes the real 32. -/
theorem word_32 : Ideal.ofBits .f32 0x42000000#32 = ((32 : ℝ) : EReal) := by
  simp [Ideal.ofBits, Ideal.ieee, -EReal.coe_mul]; norm_num
/-- The word of 0.03125 denotes the real 1/32. -/
theorem word_inv_32 : Ideal.ofBits .f32 0x3D000000#32 = ((1 / 32 : ℝ) : EReal) := by
  simp [Ideal.ofBits, Ideal.ieee, -EReal.coe_mul]; norm_num
/-- The word of −∞ denotes the bottom element. -/
theorem word_neg_inf : Ideal.ofBits .f32 0xFF800000#32 = (⊥ : EReal) := by
  simp [Ideal.ofBits, Ideal.ieee]

/-! ## One row of the reduction, on the extended reals -/

/-- The distance weight exp(−(10·x)). -/
def wt (x : EReal) : EReal := Ideal.exp (-(((10 : ℝ) : EReal) * x))

/-- A product with −10 is the negated product with 10. -/
theorem wt_of_neg_ten (x : EReal) : Ideal.exp (((-10 : ℝ) : EReal) * x) = wt x := by
  unfold wt; rw [EReal.coe_neg, neg_mul]

/-- Column `j` of a row's 128 results from the row's distances `dr`, neighbour rows `gr` and own features `pr`. -/
def rowVal (dr : Fin 32 → EReal) (gr : Fin 32 → Fin 64 → EReal) (pr : Fin 64 → EReal) (j : Fin 128) : EReal :=
  if h : j.val < 64 then
    (∑ k : Fin 32, wt (dr k) * gr k ⟨j.val, h⟩) * ((1 / 32 : ℝ) : EReal) - pr ⟨j.val, h⟩
  else
    (Finset.univ : Finset (Fin 32)).fold max (⊥ : EReal) (fun k => wt (dr k) * gr k ⟨j.val - 64, by have := j.isLt; omega⟩)
      - pr ⟨j.val - 64, by have := j.isLt; omega⟩

/-! ## A kernel body's arithmetic on a block of 1000 rows -/

variable {F : FTy → Type} [FloatOps F]

/-- The weighted neighbours exp(−10·d)·g of a block, as a body computes them from its loads of the distances and of
    the gathered neighbours. -/
def weighted (v0 : Vec F S1000x32 .f32) (v5 : Vec F S1000x32x64 .f32) : FVec F S1000x32x64 .f32 :=
  mulf (broadcastTo S1000x32x64 (shapeCast S1000x32x1 (exp (mulf (broadcast S1000x32 (Scalar.ofBits .f32 0xC1200000#32)) v0))
      shapeCasts_S1000x32_S1000x32x1) broadcasts_S1000x32x1_S1000x32x64)
    (shapeCast S1000x32x64 v5 shapeCasts_S1000x32x64_S1000x32x64)

/-- The left half of what a body stores: the neighbours' mean (their sum times the word of 1/32) minus the own features. -/
def meanHalf (v0 : Vec F S1000x32 .f32) (v5 : Vec F S1000x32x64 .f32) (v13 : Vec F S1000x64 .f32) : FVec F S1000x64 .f32 :=
  subf (mulf (multiReduction .add [1] S1000x64 (weighted v0 v5) 0x00000000#32 reduces_S1000x32x64_S1000x64 (.inl rfl) rfl)
      (broadcast S1000x64 (Scalar.ofBits .f32 0x3D000000#32)))
    (shapeCast S1000x64 v13 shapeCasts_S1000x64_S1000x64)

/-- The right half: the neighbours' maximum minus the own features. -/
def maxHalf (v0 : Vec F S1000x32 .f32) (v5 : Vec F S1000x32x64 .f32) (v13 : Vec F S1000x64 .f32) : FVec F S1000x64 .f32 :=
  subf (multiReduction .maximumf [1] S1000x64 (weighted v0 v5) 0xFF800000#32 reduces_S1000x32x64_S1000x64 (.inl rfl) rfl)
    (shapeCast S1000x64 v13 shapeCasts_S1000x64_S1000x64)

/-- The value a neighbour-reduction body stores, from its three loads (distances, gathered neighbours, own
    features): the two halves side by side. The three regions' payloads are this one term. -/
def knnPay (v0 : Vec F S1000x32 .f32) (v5 : Vec F S1000x32x64 .f32) (v13 : Vec F S1000x64 .f32) : FVec F S1000x128 .f32 :=
  concatenate S1000x128 1 [⟨S1000x64, meanHalf v0 v5 v13⟩, ⟨S1000x64, maxHalf v0 v5 v13⟩] concatenates_S1000x64_S1000x64_S1000x128_d1

/-- A column of weights [1000, 32] repeated along a new last axis of 64 reads, at (p, k, c), the weight at (p, k). -/
theorem spread_apply {α : Type} (w : S1000x32.Idx → α) (p : Fin 1000) (k : Fin 32) (c : Fin 64) :
    broadcastTo S1000x32x64 (shapeCast S1000x32x1 w shapeCasts_S1000x32_S1000x32x1) broadcasts_S1000x32x1_S1000x32x64 (ix3 p k c)
      = w (ix2 p k) := by
  refine (broadcastTo_apply _ broadcasts_S1000x32x1_S1000x32x64 (ix3 p k c) (ix3 p k (⟨0, Nat.one_pos⟩ : Fin 1)) (fun a => match a with
    | ⟨0, _⟩ => by show p.val = if (1000 : Nat) = 1 then 0 else p.val; rw [if_neg (by decide)]
    | ⟨1, _⟩ => by show k.val = if (32 : Nat) = 1 then 0 else k.val; rw [if_neg (by decide)]
    | ⟨2, _⟩ => by show 0 = if (1 : Nat) = 1 then 0 else c.val; rw [if_pos rfl])).trans ?_
  exact shapeCast_apply w shapeCasts_S1000x32_S1000x32x1 (ix3 p k (⟨0, Nat.one_pos⟩ : Fin 1)) (ix2 p k)
    (by rewrite [Shape.rowMajor_val_two, Shape.rowMajor_val_three]; show p.val * 32 + k.val = (p.val * 32 + k.val) * 1 + 0; omega)

/-- The weighted neighbours at (p, k, c): the weight of distance (p, k) times neighbour feature (p, k, c). -/
theorem weighted_apply (d : Vec Ideal S1000x32 .f32) (g : Vec Ideal S1000x32x64 .f32) (p : Fin 1000) (k : Fin 32) (c : Fin 64) :
    weighted (F := Ideal) d g (ix3 p k c) = wt (d (ix2 p k)) * g (ix3 p k c) := by
  unfold weighted
  rw [mulf_apply, spread_apply, shapeCast_self]
  show Ideal.exp (Ideal.ofBits .f32 0xC1200000#32 * d (ix2 p k)) * g (ix3 p k c) = _
  rw [word_neg_ten, wt_of_neg_ten]

/-- The lane sum over the 32 neighbours, at (p, c). -/
theorem laneSum_apply (x : FVec Ideal S1000x32x64 .f32) (p : Fin 1000) (c : Fin 64) :
    multiReduction .add [1] S1000x64 x 0x00000000#32 reduces_S1000x32x64_S1000x64 (.inl rfl) rfl (ix2 p c)
      = ∑ k : Fin 32, x (ix3 p k c) := by
  refine (Ideal.multiReduction_add_single x _ reduces_S1000x32x64_S1000x64 (.inl rfl) rfl (ix2 p c)).trans ?_
  refine Finset.sum_congr rfl fun k _ => congrArg x (funext fun a => Fin.ext ?_)
  match a with
  | ⟨0, _⟩ => rfl
  | ⟨1, _⟩ => rfl
  | ⟨2, _⟩ => rfl

/-- The lane maximum over the 32 neighbours, at (p, c): the fold of `max` from −∞. -/
theorem laneMax_apply (x : FVec Ideal S1000x32x64 .f32) (p : Fin 1000) (c : Fin 64) :
    multiReduction .maximumf [1] S1000x64 x 0xFF800000#32 reduces_S1000x32x64_S1000x64 (.inl rfl) rfl (ix2 p c)
      = (Finset.univ : Finset (Fin 32)).fold max (⊥ : EReal) (fun k => x (ix3 p k c)) := by
  refine (Ideal.multiReduction_maximumf_single x _ reduces_S1000x32x64_S1000x64 (.inl rfl) rfl (ix2 p c)).trans ?_
  show (Finset.univ : Finset (Fin 32)).fold max (Ideal.ofBits .f32 0xFF800000#32) (fun k => x (reduces_S1000x32x64_S1000x64.lift (ix2 p c) k)) = _
  rw [word_neg_inf]
  congr 1
  funext k
  refine congrArg x (funext fun a => Fin.ext ?_)
  match a with
  | ⟨0, _⟩ => rfl
  | ⟨1, _⟩ => rfl
  | ⟨2, _⟩ => rfl

/-- The left half at (p, c). -/
theorem meanHalf_apply (d : Vec Ideal S1000x32 .f32) (g : Vec Ideal S1000x32x64 .f32) (prev : Vec Ideal S1000x64 .f32)
    (p : Fin 1000) (c : Fin 64) :
    meanHalf (F := Ideal) d g prev (ix2 p c)
      = (∑ k : Fin 32, wt (d (ix2 p k)) * g (ix3 p k c)) * ((1 / 32 : ℝ) : EReal) - prev (ix2 p c) := by
  unfold meanHalf
  rw [subf_apply, mulf_apply, laneSum_apply, shapeCast_self, broadcast_apply]
  show (∑ k : Fin 32, weighted (F := Ideal) d g (ix3 p k c)) * Ideal.ofBits .f32 0x3D000000#32 - prev (ix2 p c) = _
  rw [word_inv_32]
  simp only [weighted_apply]

/-- The right half at (p, c). -/
theorem maxHalf_apply (d : Vec Ideal S1000x32 .f32) (g : Vec Ideal S1000x32x64 .f32) (prev : Vec Ideal S1000x64 .f32)
    (p : Fin 1000) (c : Fin 64) :
    maxHalf (F := Ideal) d g prev (ix2 p c)
      = (Finset.univ : Finset (Fin 32)).fold max (⊥ : EReal) (fun k => wt (d (ix2 p k)) * g (ix3 p k c)) - prev (ix2 p c) := by
  unfold maxHalf
  rw [subf_apply, laneMax_apply, shapeCast_self]
  simp only [weighted_apply]

/-- The body's value at row `p`, column `j` of the block is `rowVal` of row `p` of its three loads. -/
theorem knnPay_apply (d : Vec Ideal S1000x32 .f32) (g : Vec Ideal S1000x32x64 .f32) (prev : Vec Ideal S1000x64 .f32)
    (p : Fin 1000) (j : Fin 128) :
    knnPay (F := Ideal) d g prev (ix2 p j)
      = rowVal (fun k => d (ix2 p k)) (fun k c => g (ix3 p k c)) (fun c => prev (ix2 p c)) j := by
  unfold knnPay rowVal
  by_cases h : j.val < 64
  · rw [dif_pos h]
    exact (concatenate_pair_apply_left (t := S1000x128) (s₁ := S1000x64) (s₂ := S1000x64) 1 (meanHalf d g prev) (maxHalf d g prev)
      concatenates_S1000x64_S1000x64_S1000x128_d1 (ix2 p j) rfl (ix2 p (⟨j.val, h⟩ : Fin 64))
      (fun b => match b with | ⟨0, _⟩ => rfl | ⟨1, _⟩ => rfl)).trans (meanHalf_apply d g prev p ⟨j.val, h⟩)
  · rw [dif_neg h]
    have hj : j.val - 64 < 64 := by have := j.isLt; omega
    exact (concatenate_pair_apply_right (t := S1000x128) (s₁ := S1000x64) (s₂ := S1000x64) 1 (meanHalf d g prev) (maxHalf d g prev)
      concatenates_S1000x64_S1000x64_S1000x128_d1 (ix2 p j) rfl rfl (ix2 p (⟨j.val - 64, hj⟩ : Fin 64))
      (fun b => match b with | ⟨0, _⟩ => fun _ => rfl | ⟨1, _⟩ => fun hb => absurd rfl hb)
      (by show j.val - 64 + 64 = j.val; omega)).trans (maxHalf_apply d g prev p ⟨j.val - 64, hj⟩)

end Cert.KernelIdeal.Val

/-! ## The reference's stage on the whole arrays -/

namespace Cert.ReferenceIdeal.Stage.Knn

open Cert.ReferenceIdeal Cert.ReferenceIdeal.Gen Cert.ReferenceIdeal.Stage
open Idealize.ShloMosaic Idealize.ShloMosaic.ValueIdx
open Cert.KernelIdeal.Val (wt rowVal word_ten word_32 word_neg_inf)
open scoped BigOperators

/-- The shape fact that names the inserted neighbour coordinate. -/
theorem reduces_d1 : S100000x32x64.Reduces [1] S100000x64 := by decide

/-- The distance weights at (r, k, c): the weight of distance (r, k). -/
theorem weights_apply (d : (⟨S100000x32, .f32⟩ : BufTy).Contents (Elt Ideal)) (r : Fin 100000) (k : Fin 32) (c : Fin 64) :
    weights (F := Ideal) d (ix3 r k c) = wt (d (ix2 r k)) := by
  unfold weights
  refine (broadcastInDim_apply _ bcast_S100000x32x1_S100000x32x64_0_1_2 _ (ix3 r k c) (ix3 r k (⟨0, Nat.one_pos⟩ : Fin 1)) (fun a => match a with
    | ⟨0, _⟩ => by show r.val = if (100000 : Nat) = 1 then 0 else r.val; rw [if_neg (by decide)]
    | ⟨1, _⟩ => by show k.val = if (32 : Nat) = 1 then 0 else k.val; rw [if_neg (by decide)]
    | ⟨2, _⟩ => by show 0 = if (1 : Nat) = 1 then 0 else c.val; rw [if_pos rfl])).trans ?_
  refine (broadcastInDim_apply _ bcast_S100000x32_S100000x32x1_0_1 _ (ix3 r k (⟨0, Nat.one_pos⟩ : Fin 1)) (ix2 r k) (fun a => match a with
    | ⟨0, _⟩ => by show r.val = if (100000 : Nat) = 1 then 0 else r.val; rw [if_neg (by decide)]
    | ⟨1, _⟩ => by show k.val = if (32 : Nat) = 1 then 0 else k.val; rw [if_neg (by decide)])).trans ?_
  show Ideal.exp (-(Ideal.ofBits .f32 0x41200000#32 * d (ix2 r k))) = _
  rw [word_ten]; rfl

/-- The weighted neighbours at (r, k, c). -/
theorem weighted_apply (d : (⟨S100000x32, .f32⟩ : BufTy).Contents (Elt Ideal)) (g : (⟨S100000x32x64, .f32⟩ : BufTy).Contents (Elt Ideal))
    (r : Fin 100000) (k : Fin 32) (c : Fin 64) :
    mulf (F := Ideal) (φ := .f32) (weights (F := Ideal) d) g (ix3 r k c) = wt (d (ix2 r k)) * g (ix3 r k c) := by
  rw [mulf_apply, weights_apply]

/-- The own features repeated twice, at (r, j): feature j mod 64 of row r. -/
theorem twice_apply (prev : (⟨S100000x64, .f32⟩ : BufTy).Contents (Elt Ideal)) (r : Fin 100000) (j : Fin 128) :
    twice (F := Ideal) prev (ix2 r j) = prev (ix2 r (⟨j.val % 64, Nat.mod_lt _ (by decide)⟩ : Fin 64)) := by
  unfold twice
  have hj : j.val < 128 := j.isLt
  refine (shapeCast_apply _ shapeCasts_S1x100000x2x64_S100000x128 (ix2 r j)
    (ix4 (⟨0, Nat.one_pos⟩ : Fin 1) r (⟨j.val / 64, by omega⟩ : Fin 2) (⟨j.val % 64, Nat.mod_lt _ (by decide)⟩ : Fin 64))
    (by rewrite [Shape.rowMajor_val_four, Shape.rowMajor_val_two]
        show ((0 * 100000 + r.val) * 2 + j.val / 64) * 64 + j.val % 64 = r.val * 128 + j.val; omega)).trans ?_
  refine (broadcastInDim_apply _ bcast_S1x100000x1x64_S1x100000x2x64_0_1_2_3 _ _
    (ix4 (⟨0, Nat.one_pos⟩ : Fin 1) r (⟨0, Nat.one_pos⟩ : Fin 1) (⟨j.val % 64, Nat.mod_lt _ (by decide)⟩ : Fin 64)) (fun a => match a with
    | ⟨0, _⟩ => by show 0 = if (1 : Nat) = 1 then 0 else 0; rw [if_pos rfl]
    | ⟨1, _⟩ => by show r.val = if (100000 : Nat) = 1 then 0 else r.val; rw [if_neg (by decide)]
    | ⟨2, _⟩ => by show 0 = if (1 : Nat) = 1 then 0 else j.val / 64; rw [if_pos rfl]
    | ⟨3, _⟩ => by show j.val % 64 = if (64 : Nat) = 1 then 0 else j.val % 64; rw [if_neg (by decide)])).trans ?_
  exact shapeCast_apply prev shapeCasts_S100000x64_S1x100000x1x64 _ (ix2 r (⟨j.val % 64, Nat.mod_lt _ (by decide)⟩ : Fin 64))
    (by rewrite [Shape.rowMajor_val_two, Shape.rowMajor_val_four]
        show r.val * 64 + j.val % 64 = ((0 * 100000 + r.val) * 1 + 0) * 64 + j.val % 64; omega)

/-- The host's sum over the 32 neighbours from the zero word, at (r, c). -/
theorem hostSum_apply (y : FVec Ideal S100000x32x64 .f32) (r : Fin 100000) (c : Fin 64) :
    Host.reduceAdd (F := Ideal) y (constant (F := Ideal) S_ .f32 0x00000000#32) reducesTo_S100000x32x64_S100000x64_d1 h_S_ (ix2 r c)
      = ∑ k : Fin 32, y (ix3 r k c) := by
  simp only [Host.reduceAdd, Ideal.hostReduceAdd_def]
  rw [Ideal.hostReduceAdd_single reducesTo_S100000x32x64_S100000x64_d1 reduces_d1]
  show Ideal.ofBits .f32 0x00000000#32 + ∑ k : Fin 32, y (reduces_d1.lift (ix2 r c) k) = _
  rw [Ideal.ofBits_zero_f32, zero_add]
  refine Finset.sum_congr rfl fun k _ => congrArg y (funext fun a => Fin.ext ?_)
  match a with
  | ⟨0, _⟩ => rfl
  | ⟨1, _⟩ => rfl
  | ⟨2, _⟩ => rfl

/-- The host's maximum over the 32 neighbours from the word of −∞, at (r, c): the fold of `max` from −∞. -/
theorem hostMax_apply (y : FVec Ideal S100000x32x64 .f32) (r : Fin 100000) (c : Fin 64) :
    Host.reduce FloatOps.maximumf y (constant (F := Ideal) S_ .f32 0xFF800000#32) reducesTo_S100000x32x64_S100000x64_d1 h_S_ (ix2 r c)
      = (Finset.univ : Finset (Fin 32)).fold max (⊥ : EReal) (fun k => y (ix3 r k c)) := by
  rw [Host.reduce_eq_fold_single FloatOps.maximumf y _ reducesTo_S100000x32x64_S100000x64_d1 reduces_d1 h_S_]
  show (Finset.univ : Finset (Fin 32)).fold max (Ideal.ofBits .f32 0xFF800000#32) (fun k => y (reduces_d1.lift (ix2 r c) k)) = _
  rw [word_neg_inf]
  congr 1
  funext k
  refine congrArg y (funext fun a => Fin.ext ?_)
  match a with
  | ⟨0, _⟩ => rfl
  | ⟨1, _⟩ => rfl
  | ⟨2, _⟩ => rfl

/-- The mean half at (r, c): the sum divided by the word of 32 is the sum times 1/32. -/
theorem meanHalf_apply (y : FVec Ideal S100000x32x64 .f32) (r : Fin 100000) (c : Fin 64) :
    Host.divf (F := Ideal) (Host.reduceAdd (F := Ideal) y (constant (F := Ideal) S_ .f32 0x00000000#32) reducesTo_S100000x32x64_S100000x64_d1 h_S_)
        (broadcastInDim S100000x64 ![] bcast_S_S100000x64 (constant (F := Ideal) S_ .f32 0x42000000#32)) (ix2 r c)
      = (∑ k : Fin 32, y (ix3 r k c)) * ((1 / 32 : ℝ) : EReal) := by
  show Ideal.div (Host.reduceAdd (F := Ideal) y (constant (F := Ideal) S_ .f32 0x00000000#32) reducesTo_S100000x32x64_S100000x64_d1 h_S_ (ix2 r c))
    (Ideal.ofBits .f32 0x42000000#32) = _
  rw [hostSum_apply, word_32, Ideal.div_coe (by norm_num : (32 : ℝ) ≠ 0)]

/-- The reference's neighbour reduction at row `r`, column `j` of the array is `rowVal` of row `r` of its three
    arguments. -/
theorem reduceNeighbours_apply (d : (⟨S100000x32, .f32⟩ : BufTy).Contents (Elt Ideal))
    (prev : (⟨S100000x64, .f32⟩ : BufTy).Contents (Elt Ideal))
    (g : (⟨S100000x32x64, .f32⟩ : BufTy).Contents (Elt Ideal)) (r : Fin 100000) (j : Fin 128) :
    reduceNeighbours (F := Ideal) d prev g (ix2 r j)
      = rowVal (fun k => d (ix2 r k)) (fun k c => g (ix3 r k c)) (fun c => prev (ix2 r c)) j := by
  unfold reduceNeighbours rowVal
  rw [subf_apply, twice_apply]
  generalize hy : mulf (F := Ideal) (φ := .f32) (weights (F := Ideal) d) g = y
  have hyv : ∀ (k : Fin 32) (c : Fin 64), y (ix3 r k c) = wt (d (ix2 r k)) * g (ix3 r k c) := fun k c => by
    rw [← hy]; exact weighted_apply d g r k c
  by_cases h : j.val < 64
  · rw [dif_pos h]
    rw [concatenate_pair_apply_left (t := S100000x128) (s₁ := S100000x64) (s₂ := S100000x64) 1 _ _
      concatenates_S100000x64_S100000x64_S100000x128_d1 (ix2 r j) rfl (ix2 r (⟨j.val, h⟩ : Fin 64))
      (fun b => match b with | ⟨0, _⟩ => rfl | ⟨1, _⟩ => rfl)]
    rw [meanHalf_apply]
    simp only [hyv]
    congr 3
    exact Fin.ext (Nat.mod_eq_of_lt h)
  · rw [dif_neg h]
    have hj : j.val - 64 < 64 := by have := j.isLt; omega
    rw [concatenate_pair_apply_right (t := S100000x128) (s₁ := S100000x64) (s₂ := S100000x64) 1 _ _
      concatenates_S100000x64_S100000x64_S100000x128_d1 (ix2 r j) rfl rfl (ix2 r (⟨j.val - 64, hj⟩ : Fin 64))
      (fun b => match b with | ⟨0, _⟩ => fun _ => rfl | ⟨1, _⟩ => fun hb => absurd rfl hb)
      (by show j.val - 64 + 64 = j.val; omega)]
    rw [hostMax_apply]
    simp only [hyv]
    congr 3
    exact Fin.ext (by show j.val % 64 = j.val - 64; have := j.isLt; omega)

end Cert.ReferenceIdeal.Stage.Knn

end
-- ==== Proof.Val.KnnRows.lean ====
/-
  A block of 1000 rows against the whole arrays: if a body's three loaded blocks are rows base … base + 999 of three
  arrays, then what the body computes at row p, column j of its block is the reference's neighbour reduction of the
  arrays at row base + p, column j: both are `rowVal` of that row.
-/
import proofs.«419412_j52785148067992_2_alg».proof.Proof.Val.KnnLaws

noncomputable section

namespace Cert.ReferenceIdeal.Stage.Knn

open Cert.ReferenceIdeal Cert.ReferenceIdeal.Gen Cert.ReferenceIdeal.Stage
open Idealize.ShloMosaic Idealize.ShloMosaic.ValueIdx
open Cert.KernelIdeal.Val (knnPay knnPay_apply rowVal)

/-- The body's value on a block of rows is the reference's stage on the arrays the rows come from. -/
theorem rows_eq (dblk : Vec Ideal Cert.KernelIdeal.S1000x32 .f32) (gblk : Vec Ideal Cert.KernelIdeal.S1000x32x64 .f32)
    (pblk : Vec Ideal Cert.KernelIdeal.S1000x64 .f32)
    (d : (⟨S100000x32, .f32⟩ : BufTy).Contents (Elt Ideal)) (prev : (⟨S100000x64, .f32⟩ : BufTy).Contents (Elt Ideal))
    (g : (⟨S100000x32x64, .f32⟩ : BufTy).Contents (Elt Ideal)) (base : Nat)
    (hd : ∀ (p : Fin 1000) (k : Fin 32) (r : Fin 100000), r.val = base + p.val → dblk (ix2 p k) = d (ix2 r k))
    (hg : ∀ (p : Fin 1000) (k : Fin 32) (c : Fin 64) (r : Fin 100000), r.val = base + p.val → gblk (ix3 p k c) = g (ix3 r k c))
    (hp : ∀ (p : Fin 1000) (c : Fin 64) (r : Fin 100000), r.val = base + p.val → pblk (ix2 p c) = prev (ix2 r c))
    (y : Cert.KernelIdeal.S1000x128.Idx) (i : S100000x128.Idx) (hi0 : (i 0).val = base + (y 0).val) (hi1 : (i 1).val = (y 1).val) :
    knnPay (F := Ideal) dblk gblk pblk y = reduceNeighbours (F := Ideal) d prev g i := by
  obtain ⟨p, j, rfl⟩ : ∃ (p : Fin 1000) (j : Fin 128), y = ix2 p j := ⟨y 0, y 1, eq_ix2 y⟩
  obtain ⟨r, j', rfl⟩ : ∃ (r : Fin 100000) (j' : Fin 128), i = ix2 r j' := ⟨i 0, i 1, eq_ix2 i⟩
  have hr : r.val = base + p.val := hi0
  obtain rfl : j' = j := Fin.ext hi1
  rw [knnPay_apply, reduceNeighbours_apply]
  have e1 : (fun k => dblk (ix2 p k)) = fun k => d (ix2 r k) := funext fun k => hd p k r hr
  have e2 : (fun k c => gblk (ix3 p k c)) = fun k c => g (ix3 r k c) := funext fun k => funext fun c => hg p k c r hr
  have e3 : (fun c => pblk (ix2 p c)) = fun c => prev (ix2 r c) := funext fun c => hp p c r hr
  rw [e1, e2, e3]

end Cert.ReferenceIdeal.Stage.Knn

end
-- ==== Proof.Val.Knn1.lean ====
/-
  Region 1 (the first neighbour reduction) read as a whole-array function: the array the region leaves in its result
  window is the reference's neighbour reduction of the three arrays it reads (squared distances, the layer's features,
  the gathered neighbour features) as the region finds them. Grid point t takes rows 1000·t … 1000·t + 999 of each
  input and stores the same rows of the result; row by row the body's arithmetic and the reference's stage are the one
  function `rowVal` of the row; the 100 blocks tile the 100000 rows.
-/
import proofs.«419412_j52785148067992_2_alg».proof.Proof.KI.Knn1
import proofs.«419412_j52785148067992_2_alg».proof.Proof.Spec
import proofs.«419412_j52785148067992_2_alg».proof.Proof.Val.KnnLaws
import proofs.«419412_j52785148067992_2_alg».proof.Proof.Val.KnnRows
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Rgn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's payload is the common neighbour-reduction term. -/
theorem pay1_eq (d : Vec Ideal S1000x32 .f32) (g : Vec Ideal S1000x32x64 .f32) (prev : Vec Ideal S1000x64 .f32) :
    k1_pay1 (F := Ideal) d g prev = knnPay (F := Ideal) d g prev := rfl

/-- The zero offsets of a rank-2 and of a rank-3 whole-buffer rectangle. -/
theorem zeros1_2 : (![0, 0] : Fin 2 → Nat) = fun _ => 0 := funext fun a => by fin_cases a <;> rfl
theorem zeros1_3 : (![0, 0, 0] : Fin 3 → Nat) = fun _ => 0 := funext fun a => by fin_cases a <;> rfl

/-- The printed index maps, decided over the grid: every window's block index is the point's number on the row axis
    and zero on the others. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

/-- The distance block at point `t` is rows 1000·t … of the distance array. -/
theorem blk1_0_apply (c : Dev nD) (t : Fin cfg1.N) (p : Fin 1000) (k : Fin 32) (r : Fin 100000) (hr : r.val = 1000 * t.val + p.val) :
    (iblk1 V c 0 t : Vec Ideal S1000x32 .f32) (ix2 p k) = (V c main_arg2 : S100000x32.Idx → EReal) (ix2 r k) := by
  obtain ⟨e0, e1, -⟩ := idx_facts1 t
  unfold iblk1
  rw [View.read_apply]
  show V c main_arg2 _ = V c main_arg2 _
  congr 1
  funext a; apply Fin.ext
  match a with
  | ⟨0, _⟩ => show win1_0.index t (0 : Fin 2) * 1000 + 1 * p.val = r.val; rw [e0, hr]; omega
  | ⟨1, _⟩ => show win1_0.index t (1 : Fin 2) * 32 + 1 * k.val = k.val; rw [e1]; omega

/-- The feature block at point `t` is rows 1000·t … of the feature array. -/
theorem blk1_1_apply (c : Dev nD) (t : Fin cfg1.N) (p : Fin 1000) (cc : Fin 64) (r : Fin 100000) (hr : r.val = 1000 * t.val + p.val) :
    (iblk1 V c 1 t : Vec Ideal S1000x64 .f32) (ix2 p cc) = (V c main_v0 : S100000x64.Idx → EReal) (ix2 r cc) := by
  obtain ⟨-, -, e0, e1, -⟩ := idx_facts1 t
  unfold iblk1
  rw [View.read_apply]
  show V c main_v0 _ = V c main_v0 _
  congr 1
  funext a; apply Fin.ext
  match a with
  | ⟨0, _⟩ => show win1_1.index t (0 : Fin 2) * 1000 + 1 * p.val = r.val; rw [e0, hr]; omega
  | ⟨1, _⟩ => show win1_1.index t (1 : Fin 2) * 64 + 1 * cc.val = cc.val; rw [e1]; omega

/-- The neighbour block at point `t` is rows 1000·t … of the gathered-neighbour array. -/
theorem blk1_2_apply (c : Dev nD) (t : Fin cfg1.N) (p : Fin 1000) (k : Fin 32) (cc : Fin 64) (r : Fin 100000)
    (hr : r.val = 1000 * t.val + p.val) :
    (iblk1 V c 2 t : Vec Ideal S1000x32x64 .f32) (ix3 p k cc) = (V c main_v1 : S100000x32x64.Idx → EReal) (ix3 r k cc) := by
  obtain ⟨-, -, -, -, e0, e1, e2, -⟩ := idx_facts1 t
  unfold iblk1
  rw [View.read_apply]
  show V c main_v1 _ = V c main_v1 _
  congr 1
  funext a; apply Fin.ext
  match a with
  | ⟨0, _⟩ => show win1_2.index t (0 : Fin 3) * 1000 + 1 * p.val = r.val; rw [e0, hr]; omega
  | ⟨1, _⟩ => show win1_2.index t (1 : Fin 3) * 32 + 1 * k.val = k.val; rw [e1]; omega
  | ⟨2, _⟩ => show win1_2.index t (2 : Fin 3) * 64 + 1 * cc.val = cc.val; rw [e2]; omega

/-- What point `t` writes back is block `t` of the reference's neighbour reduction of the arrays as the region finds
    them. -/
theorem flushed1_eq (c : Dev nD) (t : Fin cfg1.N) :
    (dat1 (F := Ideal) V c).flushed 3 t = ((cfg1.win 3).blk t).view.read (Elt Ideal)
      (Cert.ReferenceIdeal.Stage.reduceNeighbours (F := Ideal) (V c main_arg2) (V c main_v0) (V c main_v1)) := by
  show (cfg1.win 3).cut (grid1.coords t) ((dat1 (F := Ideal) V c).after 3 t) = _
  rw [after1_3]
  unfold out1_3
  rw [View.canon_unit_zero zeros1_2]
  simp only [View.ld_unit_zero (S := S1000x32) zeros1_2, View.ld_unit_zero (S := S1000x64) zeros1_2,
    View.ld_unit_zero (S := S1000x32x64) zeros1_3]
  rw [pay1_eq]
  obtain ⟨-, -, -, -, -, -, -, e0, e1⟩ := idx_facts1 t
  funext y
  rw [View.read_apply]
  refine Cert.ReferenceIdeal.Stage.Knn.rows_eq (iblk1 V c 0 t) (iblk1 V c 2 t) (iblk1 V c 1 t)
    (V c main_arg2) (V c main_v0) (V c main_v1) (1000 * t.val)
    (fun p k r hr => blk1_0_apply V c t p k r hr) (fun p k cc r hr => blk1_2_apply V c t p k cc r hr)
    (fun p cc r hr => blk1_1_apply V c t p cc r hr) _ _ ?_ ?_
  · show win1_3.index t (0 : Fin 2) * 1000 + 1 * (y 0).val = 1000 * t.val + (y 0).val; rw [e0]; omega
  · show win1_3.index t (1 : Fin 2) * 128 + 1 * (y 1).val = (y 1).val; rw [e1]; omega

/-- Every row of the result array is in the block of the point numbered by its thousand. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 100 := N_1
  obtain ⟨t, ht⟩ : ∃ t : Fin cfg1.N, t.val = (i 0).val / 1000 := ⟨⟨(i 0).val / 1000, by rw [hN]; omega⟩, rfl⟩
  obtain ⟨-, -, -, -, -, -, -, e0, e1⟩ := idx_facts1 t
  refine ⟨t, flush1_3 t, ?_⟩
  show i ∈ ((View.whole main_v2).slice (win1_3.rect t)).set
  rw [View.set_slice_whole, Rect.mem_set_unit]
  intro a
  match a with
  | ⟨0, _⟩ =>
    show win1_3.index t (0 : Fin 2) * 1000 ≤ (i 0).val ∧ (i 0).val < win1_3.index t (0 : Fin 2) * 1000 + 1000
    rw [e0, ht]; omega
  | ⟨1, _⟩ =>
    show win1_3.index t (1 : Fin 2) * 128 ≤ (i 1).val ∧ (i 1).val < win1_3.index t (1 : Fin 2) * 128 + 128
    rw [e1]; omega

/-- The array region 1 leaves in its result window is the reference's neighbour reduction of its three input arrays. -/
theorem arr1_eq (c : Dev nD) :
    (dat1 (F := Ideal) V c).arrAt 3 cfg1.N
      = Cert.ReferenceIdeal.Stage.reduceNeighbours (F := Ideal) (V c main_arg2) (V c main_v0) (V c main_v1) :=
  (dat1 (F := Ideal) V c).arrAt_eq_of_cover 3 _ (fun t _ => flushed1_eq V c t) cover1

end Cert.KernelIdeal.Val

end
-- ==== Proof.Val.Whole.lean ====
/-
  What the kernel program returns, at the exact instance. Walking @main's ten items forward from the launch
  contents: region 0 leaves the first dense layer of (x, W0, b0) in its result array; the gather stretch reads it
  and, every index being in range, leaves the reference's neighbour rows; region 1 leaves the reference's neighbour
  reduction of (d, that layer, those rows), which is the first layer's output; region 2 leaves the dense layer of
  (that output, W1, b1); and so on for the second and third layers; the final concatenation puts the three outputs
  and the input side by side. No item writes an argument array or an earlier layer's output, so each is still in
  place when it is read. Hence the returned array is the specification's network of the nine arguments.
-/
import proofs.«419412_j52785148067992_2_alg».proof.Proof.KI.Run
import proofs.«419412_j52785148067992_2_alg».proof.Proof.Val.Take
import proofs.«419412_j52785148067992_2_alg».proof.Proof.Val.Dense0
import proofs.«419412_j52785148067992_2_alg».proof.Proof.Val.Dense2
import proofs.«419412_j52785148067992_2_alg».proof.Proof.Val.Dense4
import proofs.«419412_j52785148067992_2_alg».proof.Proof.Val.Knn1
import proofs.«419412_j52785148067992_2_alg».proof.Proof.Val.Knn3
import proofs.«419412_j52785148067992_2_alg».proof.Proof.Val.Knn5
import proofs.«419412_j52785148067992_2_alg».proof.Proof.Spec
import Idealize.ShloMosaic.Lib.StableHlo.Run

set_option maxRecDepth 16384

noncomputable section

namespace Cert.KernelIdeal.Val

open Cert.KernelIdeal Cert.KernelIdeal.Gen Cert.KernelIdeal.Rgn
open Idealize.ShloMosaic Idealize.ShloMosaic.TcCoe Idealize.SL.Sem Idealize.ShloMosaic.StableHlo

variable (m : (ℓ : Loc nD τ sig) → Buf (Elt Ideal) ℓ)
variable (hidx : ∀ (c : Dev nD) (i : S100000x32.Idx),
  -100000 ≤ (m ((c.tc : Thread nD τ).loc main_arg1) i).toInt ∧ (m ((c.tc : Thread nD τ).loc main_arg1) i).toInt < 100000)

/-! ## The three layers' dense parts and outputs, as the specification names them -/

abbrev P0 (c : Dev nD) := Cert.ReferenceIdeal.Stage.dense64 (F := Ideal) (m ((c.tc : Thread nD τ).loc main_arg0)) (m ((c.tc : Thread nD τ).loc main_arg3)) (m ((c.tc : Thread nD τ).loc main_arg4))
abbrev O0 (c : Dev nD) := Cert.ReferenceIdeal.Stage.layerOut (F := Ideal) (m ((c.tc : Thread nD τ).loc main_arg2)) (m ((c.tc : Thread nD τ).loc main_arg1)) (P0 m c)
abbrev P1 (c : Dev nD) := Cert.ReferenceIdeal.Stage.dense128 (F := Ideal) (O0 m c) (m ((c.tc : Thread nD τ).loc main_arg5)) (m ((c.tc : Thread nD τ).loc main_arg6))
abbrev O1 (c : Dev nD) := Cert.ReferenceIdeal.Stage.layerOut (F := Ideal) (m ((c.tc : Thread nD τ).loc main_arg2)) (m ((c.tc : Thread nD τ).loc main_arg1)) (P1 m c)
abbrev P2 (c : Dev nD) := Cert.ReferenceIdeal.Stage.dense128 (F := Ideal) (O1 m c) (m ((c.tc : Thread nD τ).loc main_arg7)) (m ((c.tc : Thread nD τ).loc main_arg8))
abbrev O2 (c : Dev nD) := Cert.ReferenceIdeal.Stage.layerOut (F := Ideal) (m ((c.tc : Thread nD τ).loc main_arg2)) (m ((c.tc : Thread nD τ).loc main_arg1)) (P2 m c)

/-! ## A buffer nobody has written yet still holds its launch contents -/

theorem at_Wout0 (c : Dev nD) (r : Ref sig .tc) (g0 : r ≠ main_v0) :
    Wout0 m c (Proc.devRef .tc r) = m ((c.tc : Thread nD τ).loc r) := Wout0_keep m c r g0
theorem at_Win1 (c : Dev nD) (r : Ref sig .tc) (h1 : r ∉ hostOps1_W) (g0 : r ≠ main_v0) :
    Win1 m c (Proc.devRef .tc r) = m ((c.tc : Thread nD τ).loc r) :=
  (StableHlo.after_of_writes_sub hostOps1 _ hostOps1_writes h1).trans (at_Wout0 m c r g0)
theorem at_Wout1 (c : Dev nD) (r : Ref sig .tc) (h1 : r ∉ hostOps1_W) (g0 : r ≠ main_v0) (g1 : r ≠ main_v2) :
    Wout1 m c (Proc.devRef .tc r) = m ((c.tc : Thread nD τ).loc r) :=
  (Wout1_keep m c r g1).trans (at_Win1 m c r h1 g0)
theorem at_Wout2 (c : Dev nD) (r : Ref sig .tc) (h1 : r ∉ hostOps1_W) (g0 : r ≠ main_v0) (g1 : r ≠ main_v2) (g2 : r ≠ main_v3) :
    Wout2 m c (Proc.devRef .tc r) = m ((c.tc : Thread nD τ).loc r) :=
  (Wout2_keep m c r g2).trans (at_Wout1 m c r h1 g0 g1)
theorem at_Win3 (c : Dev nD) (r : Ref sig .tc) (h1 : r ∉ hostOps1_W) (h3 : r ∉ hostOps3_W) (g0 : r ≠ main_v0) (g1 : r ≠ main_v2) (g2 : r ≠ main_v3) :
    Win3 m c (Proc.devRef .tc r) = m ((c.tc : Thread nD τ).loc r) :=
  (StableHlo.after_of_writes_sub hostOps3 _ hostOps3_writes h3).trans (at_Wout2 m c r h1 g0 g1 g2)
theorem at_Wout3 (c : Dev nD) (r : Ref sig .tc) (h1 : r ∉ hostOps1_W) (h3 : r ∉ hostOps3_W) (g0 : r ≠ main_v0) (g1 : r ≠ main_v2) (g2 : r ≠ main_v3) (g3 : r ≠ main_v5) :
    Wout3 m c (Proc.devRef .tc r) = m ((c.tc : Thread nD τ).loc r) :=
  (Wout3_keep m c r g3).trans (at_Win3 m c r h1 h3 g0 g1 g2)
theorem at_Wout4 (c : Dev nD) (r : Ref sig .tc) (h1 : r ∉ hostOps1_W) (h3 : r ∉ hostOps3_W) (g0 : r ≠ main_v0) (g1 : r ≠ main_v2) (g2 : r ≠ main_v3) (g3 : r ≠ main_v5) (g4 : r ≠ main_v6) :
    Wout4 m c (Proc.devRef .tc r) = m ((c.tc : Thread nD τ).loc r) :=
  (Wout4_keep m c r g4).trans (at_Wout3 m c r h1 h3 g0 g1 g2 g3)
theorem at_Win5 (c : Dev nD) (r : Ref sig .tc) (h1 : r ∉ hostOps1_W) (h3 : r ∉ hostOps3_W) (h5 : r ∉ hostOps5_W) (g0 : r ≠ main_v0) (g1 : r ≠ main_v2) (g2 : r ≠ main_v3) (g3 : r ≠ main_v5) (g4 : r ≠ main_v6) :
    Win5 m c (Proc.devRef .tc r) = m ((c.tc : Thread nD τ).loc r) :=
  (StableHlo.after_of_writes_sub hostOps5 _ hostOps5_writes h5).trans (at_Wout4 m c r h1 h3 g0 g1 g2 g3 g4)
theorem at_Wout5 (c : Dev nD) (r : Ref sig .tc) (h1 : r ∉ hostOps1_W) (h3 : r ∉ hostOps3_W) (h5 : r ∉ hostOps5_W) (g0 : r ≠ main_v0) (g1 : r ≠ main_v2) (g2 : r ≠ main_v3) (g3 : r ≠ main_v5) (g4 : r ≠ main_v6) (g5 : r ≠ main_v8) :
    Wout5 m c (Proc.devRef .tc r) = m ((c.tc : Thread nD τ).loc r) :=
  (Wout5_keep m c r g5).trans (at_Win5 m c r h1 h3 h5 g0 g1 g2 g3 g4)

/-! ## The final concatenation -/

/-- The final concatenation reads the three outputs and the input. -/
theorem v9_Wend_raw (c : Dev nD) (W : Valuation τ sig (Elt Ideal)) :
    StableHlo.after hostOps6 W (Proc.devRef .tc main_v9)
      = Cert.ReferenceIdeal.Stage.allFeatures (F := Ideal) (W (Proc.devRef .tc main_v2)) (W (Proc.devRef .tc main_v5)) (W (Proc.devRef .tc main_v8)) (W (Proc.devRef .tc main_arg0)) := by
  show StableHlo.after hostOps6 W (Proc.devRef .tc main_v9) = _
  after_results
  rfl

/-! ## Layer 1 -/

/-- Region 0 leaves the first dense layer in `main_v0`. -/
theorem v0_Wout0 (c : Dev nD) : Wout0 m c (Proc.devRef .tc main_v0) = P0 m c :=
  (Wout0_arr m c 3).trans (arr0_eq (Vin0 m) c)
theorem v0_Win1 (c : Dev nD) : Win1 m c (Proc.devRef .tc main_v0) = P0 m c :=
  (StableHlo.after_of_writes_sub hostOps1 _ hostOps1_writes (by decide)).trans (v0_Wout0 m c)
include hidx

/-- The first gather stretch leaves the neighbour rows of that layer in `main_v1`. -/
theorem v1_Win1 (c : Dev nD) : Win1 m c (Proc.devRef .tc main_v1) = Cert.ReferenceIdeal.Stage.neighbours (F := Ideal) (P0 m c) (m ((c.tc : Thread nD τ).loc main_arg1)) :=
  (hostOps1_v1 (Wout0 m c)).trans <|
    (congr (congrArg takeFill (v0_Wout0 m c)) (at_Wout0 m c main_arg1 (by decide))).trans (takeFill_eq_neighbours _ _ (hidx c))
/-- Region 1 leaves the first layer's output in `main_v2`. -/
theorem v2_Wout1 (c : Dev nD) : Wout1 m c (Proc.devRef .tc main_v2) = O0 m c :=
  (Wout1_arr m c 3).trans <| (arr1_eq (Vin1 m) c).trans <|
    congr (congr (congrArg Cert.ReferenceIdeal.Stage.reduceNeighbours (at_Win1 m c main_arg2 (by decide) (by decide))) (v0_Win1 m c)) (v1_Win1 m hidx c)

/-! ## Layer 2 -/

/-- Region 2 leaves the second dense layer in `main_v3`. -/
theorem v3_Wout2 (c : Dev nD) : Wout2 m c (Proc.devRef .tc main_v3) = P1 m c :=
  (Wout2_arr m c 3).trans <| (arr2_eq (Vin2 m) c).trans <|
    congr (congr (congrArg Cert.ReferenceIdeal.Stage.dense128 (v2_Wout1 m hidx c)) (at_Wout1 m c main_arg5 (by decide) (by decide) (by decide))) (at_Wout1 m c main_arg6 (by decide) (by decide) (by decide))
theorem v3_Win3 (c : Dev nD) : Win3 m c (Proc.devRef .tc main_v3) = P1 m c :=
  (StableHlo.after_of_writes_sub hostOps3 _ hostOps3_writes (by decide)).trans (v3_Wout2 m hidx c)
theorem v4_Win3 (c : Dev nD) : Win3 m c (Proc.devRef .tc main_v4) = Cert.ReferenceIdeal.Stage.neighbours (F := Ideal) (P1 m c) (m ((c.tc : Thread nD τ).loc main_arg1)) :=
  (hostOps3_v4 (Wout2 m c)).trans <|
    (congr (congrArg takeFill (v3_Wout2 m hidx c)) (at_Wout2 m c main_arg1 (by decide) (by decide) (by decide) (by decide))).trans (takeFill_eq_neighbours _ _ (hidx c))
/-- Region 3 leaves the second layer's output in `main_v5`. -/
theorem v5_Wout3 (c : Dev nD) : Wout3 m c (Proc.devRef .tc main_v5) = O1 m c :=
  (Wout3_arr m c 3).trans <| (arr3_eq (Vin3 m) c).trans <|
    congr (congr (congrArg Cert.ReferenceIdeal.Stage.reduceNeighbours (at_Win3 m c main_arg2 (by decide) (by decide) (by decide) (by decide) (by decide))) (v3_Win3 m hidx c)) (v4_Win3 m hidx c)

/-! ## Layer 3 -/

/-- Region 4 leaves the third dense layer in `main_v6`. -/
theorem v6_Wout4 (c : Dev nD) : Wout4 m c (Proc.devRef .tc main_v6) = P2 m c :=
  (Wout4_arr m c 3).trans <| (arr4_eq (Vin4 m) c).trans <|
    congr (congr (congrArg Cert.ReferenceIdeal.Stage.dense128 (v5_Wout3 m hidx c)) (at_Wout3 m c main_arg7 (by decide) (by decide) (by decide) (by decide) (by decide) (by decide))) (at_Wout3 m c main_arg8 (by decide) (by decide) (by decide) (by decide) (by decide) (by decide))
theorem v6_Win5 (c : Dev nD) : Win5 m c (Proc.devRef .tc main_v6) = P2 m c :=
  (StableHlo.after_of_writes_sub hostOps5 _ hostOps5_writes (by decide)).trans (v6_Wout4 m hidx c)
theorem v7_Win5 (c : Dev nD) : Win5 m c (Proc.devRef .tc main_v7) = Cert.ReferenceIdeal.Stage.neighbours (F := Ideal) (P2 m c) (m ((c.tc : Thread nD τ).loc main_arg1)) :=
  (hostOps5_v7 (Wout4 m c)).trans <|
    (congr (congrArg takeFill (v6_Wout4 m hidx c)) (at_Wout4 m c main_arg1 (by decide) (by decide) (by decide) (by decide) (by decide) (by decide) (by decide))).trans (takeFill_eq_neighbours _ _ (hidx c))
/-- Region 5 leaves the third layer's output in `main_v8`. -/
theorem v8_Wout5 (c : Dev nD) : Wout5 m c (Proc.devRef .tc main_v8) = O2 m c :=
  (Wout5_arr m c 3).trans <| (arr5_eq (Vin5 m) c).trans <|
    congr (congr (congrArg Cert.ReferenceIdeal.Stage.reduceNeighbours (at_Win5 m c main_arg2 (by decide) (by decide) (by decide) (by decide) (by decide) (by decide) (by decide) (by decide))) (v6_Win5 m hidx c)) (v7_Win5 m hidx c)

/-! ## The earlier outputs are still in place at the end -/

theorem v2_Wout5 (c : Dev nD) : Wout5 m c (Proc.devRef .tc main_v2) = O0 m c :=
  (Wout5_keep m c main_v2 (by decide)).trans <|
  (StableHlo.after_of_writes_sub hostOps5 _ hostOps5_writes (by decide)).trans <|
  (Wout4_keep m c main_v2 (by decide)).trans <|
  (Wout3_keep m c main_v2 (by decide)).trans <|
  (StableHlo.after_of_writes_sub hostOps3 _ hostOps3_writes (by decide)).trans <|
  (Wout2_keep m c main_v2 (by decide)).trans (v2_Wout1 m hidx c)
theorem v5_Wout5 (c : Dev nD) : Wout5 m c (Proc.devRef .tc main_v5) = O1 m c :=
  (Wout5_keep m c main_v5 (by decide)).trans <|
  (StableHlo.after_of_writes_sub hostOps5 _ hostOps5_writes (by decide)).trans <|
  (Wout4_keep m c main_v5 (by decide)).trans (v5_Wout3 m hidx c)

/-! ## The result -/

/-- The kernel program returns the specification's network of its nine arguments. -/
theorem v9_Wend (c : Dev nD) :
    Wend m c (Proc.devRef .tc main_v9)
      = Cert.ReferenceIdeal.Stage.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (v9_Wend_raw c (Wout5 m c)).trans <|
    congr (congr (congr (congrArg Cert.ReferenceIdeal.Stage.allFeatures (v2_Wout5 m hidx c)) (v5_Wout5 m hidx c)) (v8_Wout5 m hidx c))
      (at_Wout5 m c main_arg0 (by decide) (by decide) (by decide) (by decide) (by decide) (by decide) (by decide) (by decide) (by decide))

end Cert.KernelIdeal.Val

end
-- ==== Proof.LibTypedRef.lean ====
/-
  A general fact about typed references: a value moved into a typed reference's buffer type and read back through
  another typed reference to the same buffer is the value itself.
-/
import Idealize.ShloMosaic.Lib.StableHlo.Run

namespace Idealize.ShloMosaic.StableHlo

variable {sig : RefSig} {Val : EltTy → Type}

/-- Writing through one typed reference and reading through another typed reference to the same buffer returns
    the value written. -/
theorem TRef.ofBuf_toBuf {T : BufTy} (r : Ref sig .tc) (h h' : r.ty = T) (a a' : r.space ≠ .host) (b b' : r.isScoped = false)
    (v : T.Contents Val) : (TRef.of r h a b).ofBuf ((TRef.of r h' a' b').toBuf v) = v := by
  subst h; rfl

end Idealize.ShloMosaic.StableHlo
-- ==== Proof.Ref.Layer0.lean ====
/-
  The reference's first layer, read back. Its 36 host operations are cut where the mean and the maximum are joined:
  the first 31 compute the dense part relu(x·W0 + b0), the wrapped neighbour indices, the neighbours' rows, the
  weights exp(−(10·d)), their products, and the mean and the maximum of the products over the 32 neighbours; the last
  5 join mean and maximum side by side and subtract the row's own features repeated twice. Each part is read back
  as the specification's term of the buffers it reads, and the two are joined: the layer leaves `layerOut` of the
  distances, the indices and the dense part. A buffer a part does not write is left as it was.
-/
import proofs.«419412_j52785148067992_2_alg».proof.Proof.Gen.ReferenceIdeal
import proofs.«419412_j52785148067992_2_alg».proof.Proof.Spec
import proofs.«419412_j52785148067992_2_alg».proof.Proof.LibTypedRef
import Idealize.ShloMosaic.Lib.StableHlo.Run
import Idealize.ShloMosaic.Lib.Pipeline.Frame

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-! ## Up to the mean and the maximum -/

abbrev A0 : List (HloOp τ sig (Elt F)) :=
  [ binary main_arg0 main_arg3 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v3) (TRef.of (T := ⟨S100000x64, .f32⟩) main_call0_v0) (TRef.of (T := ⟨S100000x64, .f32⟩) main_v4) maximumf,
    nullary main_cst (constant S_ .f32 0x41200000#32),
    unary main_cst main_v5 (broadcastInDim S100000x32 ![] bcast_S_S100000x32 : (⟨S_, .f32⟩ : BufTy).Contents (Elt F) → (⟨S100000x32, .f32⟩ : BufTy).Contents (Elt F)),
    binary main_v5 main_arg2 main_v6 (mulf : (⟨S100000x32, .f32⟩ : BufTy).Contents (Elt F) → (⟨S100000x32, .f32⟩ : BufTy).Contents (Elt F) → (⟨S100000x32, .f32⟩ : BufTy).Contents (Elt F)),
    unary main_v6 main_v7 (Host.negf : (⟨S100000x32, .f32⟩ : BufTy).Contents (Elt F) → (⟨S100000x32, .f32⟩ : BufTy).Contents (Elt F)),
    unary main_v7 main_v8 (Host.exp : (⟨S100000x32, .f32⟩ : BufTy).Contents (Elt F) → (⟨S100000x32, .f32⟩ : BufTy).Contents (Elt F)),
    unary main_v8 main_v9 (broadcastInDim S100000x32x1 ![0, 1] bcast_S100000x32_S100000x32x1_0_1 : (⟨S100000x32, .f32⟩ : BufTy).Contents (Elt F) → (⟨S100000x32x1, .f32⟩ : BufTy).Contents (Elt F)),
    nullary main_c (constantI S_ 32 0#32),
    unary main_c main_v10 (broadcastInDim S100000x32 ![] bcast_S_S100000x32 : (⟨S_, .i32⟩ : BufTy).Contents (Elt F) → (⟨S100000x32, .i32⟩ : BufTy).Contents (Elt F)),
    binary main_arg1 main_v10 main_v11 (cmpi .slt : (⟨S100000x32, .i32⟩ : BufTy).Contents (Elt F) → (⟨S100000x32, .i32⟩ : BufTy).Contents (Elt F) → (⟨S100000x32, .i1⟩ : BufTy).Contents (Elt F)),
    nullary main_c_0 (constantI S_ 32 100000#32),
    unary main_c_0 main_v12 (broadcastInDim S100000x32 ![] bcast_S_S100000x32 : (⟨S_, .i32⟩ : BufTy).Contents (Elt F) → (⟨S100000x32, .i32⟩ : BufTy).Contents (Elt F)),
    binary main_arg1 main_v12 main_v13 (addi : (⟨S100000x32, .i32⟩ : BufTy).Contents (Elt F) → (⟨S100000x32, .i32⟩ : BufTy).Contents (Elt F) → (⟨S100000x32, .i32⟩ : BufTy).Contents (Elt F)),
    ternary main_v11 main_v13 main_arg1 main_v14 (select : (⟨S100000x32, .i1⟩ : BufTy).Contents (Elt F) → (⟨S100000x32, .i32⟩ : BufTy).Contents (Elt F) → (⟨S100000x32, .i32⟩ : BufTy).Contents (Elt F) → (⟨S100000x32, .i32⟩ : BufTy).Contents (Elt F)),
    unary main_v14 main_v15 (broadcastInDim S100000x32x1 ![0, 1] bcast_S100000x32_S100000x32x1_0_1 : (⟨S100000x32, .i32⟩ : BufTy).Contents (Elt F) → (⟨S100000x32x1, .i32⟩ : BufTy).Contents (Elt F)),
    binary main_v4 main_v15 main_v16 ((fun x i => Host.gather gather_S100000x64_S100000x32x1_S100000x32x64_2_0_n_n_0_2_164 x i) : (⟨S100000x64, .f32⟩ : BufTy).Contents (Elt F) → (⟨S100000x32x1, .i32⟩ : BufTy).Contents (Elt F) → (⟨S100000x32x64, .f32⟩ : BufTy).Contents (Elt F)),
    unary main_v9 main_v17 (broadcastInDim S100000x32x64 ![0, 1, 2] bcast_S100000x32x1_S100000x32x64_0_1_2 : (⟨S100000x32x1, .f32⟩ : BufTy).Contents (Elt F) → (⟨S100000x32x64, .f32⟩ : BufTy).Contents (Elt F)),
    binary main_v17 main_v16 main_v18 (mulf : (⟨S100000x32x64, .f32⟩ : BufTy).Contents (Elt F) → (⟨S100000x32x64, .f32⟩ : BufTy).Contents (Elt F) → (⟨S100000x32x64, .f32⟩ : BufTy).Contents (Elt F)),
    nullary main_cst_1 (constant S_ .f32 0x00000000#32),
    binary main_v18 main_cst_1 main_v19 ((fun x v => Host.reduceAdd x v reducesTo_S100000x32x64_S100000x64_d1 h_S_) : (⟨S100000x32x64, .f32⟩ : BufTy).Contents (Elt F) → (⟨S_, .f32⟩ : BufTy).Contents (Elt F) → (⟨S100000x64, .f32⟩ : BufTy).Contents (Elt F)),
    nullary main_cst_2 (constant S_ .f32 0x42000000#32),
    unary main_cst_2 main_v20 (broadcastInDim S100000x64 ![] bcast_S_S100000x64 : (⟨S_, .f32⟩ : BufTy).Contents (Elt F) → (⟨S100000x64, .f32⟩ : BufTy).Contents (Elt F)),
    binary main_v19 main_v20 main_v21 (Host.divf : (⟨S100000x64, .f32⟩ : BufTy).Contents (Elt F) → (⟨S100000x64, .f32⟩ : BufTy).Contents (Elt F) → (⟨S100000x64, .f32⟩ : BufTy).Contents (Elt F)),
    nullary main_cst_3 (constant S_ .f32 0xFF800000#32),
    binary main_v18 main_cst_3 main_v22 ((fun x v => Host.reduce FloatOps.maximumf x v reducesTo_S100000x32x64_S100000x64_d1 h_S_) : (⟨S100000x32x64, .f32⟩ : BufTy).Contents (Elt F) → (⟨S_, .f32⟩ : BufTy).Contents (Elt F) → (⟨S100000x64, .f32⟩ : BufTy).Contents (Elt F)) ]

/-- The buffers those operations write. -/
abbrev A0_W : List (Ref sig .tc) := [main_v0, main_v1, main_v2, main_v3, main_call0_cst, main_call0_v0, main_v4, main_cst, main_v5, main_v6, main_v7, main_v8, main_v9, main_c, main_v10, main_v11, main_c_0, main_v12, main_v13, main_v14, main_v15, main_v16, main_v17, main_v18, main_cst_1, main_v19, main_cst_2, main_v20, main_v21, main_cst_3, main_v22]
theorem A0_writes : (A0 : List (HloOp τ sig (Elt F))).Forall fun op => op.writes ⊆ (A0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer they do not write is left as it was. -/
theorem A0_keep (W : Valuation τ sig (Elt F)) (r : Ref sig .tc) (h : r ∉ A0_W) :
    StableHlo.after A0 W (Proc.devRef .tc r) = W (Proc.devRef .tc r) :=
  StableHlo.after_of_writes_sub A0 W A0_writes h

set_option maxHeartbeats 8000000 in
/-- They leave the dense part relu(x·W + b) in `main_v4`, -/
theorem A0_prev (W : Valuation τ sig (Elt F)) :
    StableHlo.after A0 W (Proc.devRef .tc main_v4)
      = Cert.ReferenceIdeal.Stage.dense64 (W (Proc.devRef .tc main_arg0)) (W (Proc.devRef .tc main_arg3)) (W (Proc.devRef .tc main_arg4)) := by
  have hl : ∀ v : (⟨S100000x64, .f32⟩ : BufTy).Contents (Elt F), (TRef.of main_v3 : TRef sig ⟨S100000x64, .f32⟩).ofBuf v = v := fun _ => rfl
  have hr : ∀ v : (⟨S100000x64, .f32⟩ : BufTy).Contents (Elt F), (TRef.of main_v4 : TRef sig ⟨S100000x64, .f32⟩).toBuf v = v := fun _ => rfl
  show StableHlo.after A0 _ _ = _
  after_results_simp
  simp only [TRef.ofBuf_toBuf]
  simp only [hl, hr]
  unfold Cert.ReferenceIdeal.Stage.dense64 Cert.ReferenceIdeal.Stage.relu Cert.ReferenceIdeal.Stage.biasRows
  rfl

set_option maxHeartbeats 8000000 in
/-- the mean over the neighbours of weight·neighbour in `main_v21`, -/
theorem A0_mean (W : Valuation τ sig (Elt F)) :
    StableHlo.after A0 W (Proc.devRef .tc main_v21)
      = Host.divf (Host.reduceAdd (mulf (Cert.ReferenceIdeal.Stage.weights (W (Proc.devRef .tc main_arg2)))
            (Cert.ReferenceIdeal.Stage.neighbours (Cert.ReferenceIdeal.Stage.dense64 (W (Proc.devRef .tc main_arg0)) (W (Proc.devRef .tc main_arg3)) (W (Proc.devRef .tc main_arg4)))
              (W (Proc.devRef .tc main_arg1)))) (constant S_ .f32 0x00000000#32) reducesTo_S100000x32x64_S100000x64_d1 h_S_)
          (broadcastInDim S100000x64 ![] bcast_S_S100000x64 (constant S_ .f32 0x42000000#32)) := by
  have hl : ∀ v : (⟨S100000x64, .f32⟩ : BufTy).Contents (Elt F), (TRef.of main_v3 : TRef sig ⟨S100000x64, .f32⟩).ofBuf v = v := fun _ => rfl
  have hr : ∀ v : (⟨S100000x64, .f32⟩ : BufTy).Contents (Elt F), (TRef.of main_v4 : TRef sig ⟨S100000x64, .f32⟩).toBuf v = v := fun _ => rfl
  show StableHlo.after A0 _ _ = _
  after_results_simp
  simp only [TRef.ofBuf_toBuf]
  simp only [hl, hr]
  unfold Cert.ReferenceIdeal.Stage.weights Cert.ReferenceIdeal.Stage.neighbours Cert.ReferenceIdeal.Stage.startIdx Cert.ReferenceIdeal.Stage.wrapIdx Cert.ReferenceIdeal.Stage.dense64 Cert.ReferenceIdeal.Stage.relu Cert.ReferenceIdeal.Stage.biasRows
  rfl

set_option maxHeartbeats 8000000 in
/-- and their maximum in `main_v22`. -/
theorem A0_max (W : Valuation τ sig (Elt F)) :
    StableHlo.after A0 W (Proc.devRef .tc main_v22)
      = Host.reduce FloatOps.maximumf (mulf (Cert.ReferenceIdeal.Stage.weights (W (Proc.devRef .tc main_arg2)))
            (Cert.ReferenceIdeal.Stage.neighbours (Cert.ReferenceIdeal.Stage.dense64 (W (Proc.devRef .tc main_arg0)) (W (Proc.devRef .tc main_arg3)) (W (Proc.devRef .tc main_arg4)))
              (W (Proc.devRef .tc main_arg1)))) (constant S_ .f32 0xFF800000#32) reducesTo_S100000x32x64_S100000x64_d1 h_S_ := by
  have hl : ∀ v : (⟨S100000x64, .f32⟩ : BufTy).Contents (Elt F), (TRef.of main_v3 : TRef sig ⟨S100000x64, .f32⟩).ofBuf v = v := fun _ => rfl
  have hr : ∀ v : (⟨S100000x64, .f32⟩ : BufTy).Contents (Elt F), (TRef.of main_v4 : TRef sig ⟨S100000x64, .f32⟩).toBuf v = v := fun _ => rfl
  show StableHlo.after A0 _ _ = _
  after_results_simp
  simp only [TRef.ofBuf_toBuf]
  simp only [hl, hr]
  unfold Cert.ReferenceIdeal.Stage.weights Cert.ReferenceIdeal.Stage.neighbours Cert.ReferenceIdeal.Stage.startIdx Cert.ReferenceIdeal.Stage.wrapIdx Cert.ReferenceIdeal.Stage.dense64 Cert.ReferenceIdeal.Stage.relu Cert.ReferenceIdeal.Stage.biasRows
  rfl

/-! ## Joining them and subtracting the row's own features -/

abbrev B0 : List (HloOp τ sig (Elt F)) :=
  [ binary main_v21 main_v22 main_v23 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    reshape main_v4 main_v24 rfl shapeCasts_S100000x64_S1x100000x1x64,
    unary main_v24 main_v25 (broadcastInDim S1x100000x2x64 ![0, 1, 2, 3] bcast_S1x100000x1x64_S1x100000x2x64_0_1_2_3 : (⟨S1x100000x1x64, .f32⟩ : BufTy).Contents (Elt F) → (⟨S1x100000x2x64, .f32⟩ : BufTy).Contents (Elt F)),
    reshape main_v25 main_v26 rfl shapeCasts_S1x100000x2x64_S100000x128,
    binary main_v23 main_v26 main_v27 (subf : (⟨S100000x128, .f32⟩ : BufTy).Contents (Elt F) → (⟨S100000x128, .f32⟩ : BufTy).Contents (Elt F) → (⟨S100000x128, .f32⟩ : BufTy).Contents (Elt F)) ]

abbrev B0_W : List (Ref sig .tc) := [main_v23, main_v24, main_v25, main_v26, main_v27]
theorem B0_writes : (B0 : List (HloOp τ sig (Elt F))).Forall fun op => op.writes ⊆ (B0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem B0_keep (W : Valuation τ sig (Elt F)) (r : Ref sig .tc) (h : r ∉ B0_W) :
    StableHlo.after B0 W (Proc.devRef .tc r) = W (Proc.devRef .tc r) :=
  StableHlo.after_of_writes_sub B0 W B0_writes h

set_option maxHeartbeats 4000000 in
/-- The last five operations leave mean and maximum side by side minus the dense part repeated twice. -/
theorem B0_out (W : Valuation τ sig (Elt F)) :
    StableHlo.after B0 W (Proc.devRef .tc main_v27)
      = subf (concatenate S100000x128 1 [⟨S100000x64, W (Proc.devRef .tc main_v21)⟩, ⟨S100000x64, W (Proc.devRef .tc main_v22)⟩]
            concatenates_S100000x64_S100000x64_S100000x128_d1)
          (Cert.ReferenceIdeal.Stage.twice (W (Proc.devRef .tc main_v4))) := by
  show StableHlo.after B0 _ _ = _
  after_results_simp
  unfold Cert.ReferenceIdeal.Stage.twice
  rfl

/-! ## The layer -/

/-- The first layer's 36 operations leave the layer's output in `main_v27`. -/
theorem L0_out (W : Valuation τ sig (Elt F)) :
    StableHlo.after (A0 ++ B0) W (Proc.devRef .tc main_v27)
      = Cert.ReferenceIdeal.Stage.layerOut (W (Proc.devRef .tc main_arg2)) (W (Proc.devRef .tc main_arg1))
          (Cert.ReferenceIdeal.Stage.dense64 (W (Proc.devRef .tc main_arg0)) (W (Proc.devRef .tc main_arg3)) (W (Proc.devRef .tc main_arg4))) := by
  rw [StableHlo.after_append, B0_out, A0_mean, A0_max, A0_prev]
  rfl

/-- A buffer the layer does not write is left as it was. -/
theorem L0_keep (W : Valuation τ sig (Elt F)) (r : Ref sig .tc) (hA : r ∉ A0_W) (hB : r ∉ B0_W) :
    StableHlo.after (A0 ++ B0) W (Proc.devRef .tc r) = W (Proc.devRef .tc r) := by
  rw [StableHlo.after_append, B0_keep _ r hB, A0_keep W r hA]

end Cert.ReferenceIdeal.Chunks

end
-- ==== Proof.Ref.RunH.lean ====
/-
  The reference's run. Its 109 host operations are the three layers' 36 each and the final concatenation; a layer
  leaves its output — the dense part, the neighbours' rows, the reduction — of the buffers it reads and writes no
  argument and no earlier layer's output; the concatenation joins the three outputs and the input. So the
  operations leave the specification's network of the nine arguments in the result buffer, and every weakly fair
  execution of the reference ends there with the arguments unchanged.
-/
import proofs.«419412_j52785148067992_2_alg».proof.Proof.Ref.RunC
import proofs.«419412_j52785148067992_2_alg».proof.Proof.Ref.Layer0
import proofs.«419412_j52785148067992_2_alg».proof.Proof.Ref.Layer1
import proofs.«419412_j52785148067992_2_alg».proof.Proof.Ref.Layer2

noncomputable section

namespace Cert.ReferenceIdeal.Chunks

open Cert.ReferenceIdeal Cert.ReferenceIdeal.Gen Idealize.ShloMosaic Idealize.ShloMosaic.TcCoe Idealize.SL.Sem Idealize.ShloMosaic.StableHlo
open Cert.ReferenceIdeal.ValueP (ops main_eq ops_sub scopedRefs_eq scopedSems_eq)

variable {F : FTy → Type} [FloatOps F]

/-- The final concatenation. -/
abbrev Lf : List (HloOp τ sig (Elt F)) :=
  [ nary ![main_v27, main_v55, main_v83, main_arg0] main_v84 (fun u => concatenate S100000x448 1 [⟨S100000x128, u 0⟩, ⟨S100000x128, u 1⟩, ⟨S100000x128, u 2⟩, ⟨S100000x64, u 3⟩] concatenates_S100000x128_S100000x128_S100000x128_S100000x64_S100000x448_d1) ]

/-- It joins the three layers' outputs and the input. -/
theorem Lf_out (W : Valuation τ sig (Elt F)) :
    StableHlo.after Lf W (Proc.devRef .tc main_v84)
      = Cert.ReferenceIdeal.Stage.allFeatures (W (Proc.devRef .tc main_v27)) (W (Proc.devRef .tc main_v55)) (W (Proc.devRef .tc main_v83)) (W (Proc.devRef .tc main_arg0)) := by
  show StableHlo.after Lf _ _ = _
  after_results_simp
  rfl

/-- The operation list is the three layers and the concatenation. -/
theorem ops_split : (ops : List (HloOp τ sig (Elt F))) = (A0 ++ B0) ++ ((A1 ++ B1) ++ ((A2 ++ B2) ++ Lf)) := rfl

/-- The 109 operations leave the network of the nine arguments in `main_v84`. -/
theorem value (W : Valuation τ sig (Elt F)) :
    StableHlo.after ops W (Proc.devRef .tc main_v84)
      = Cert.ReferenceIdeal.Stage.network (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [ops_split, StableHlo.after_append, StableHlo.after_append, StableHlo.after_append, Lf_out]
  rw [L2_out, L2_keep _ main_v55 (by decide) (by decide), L2_keep _ main_v27 (by decide) (by decide), L2_keep _ main_arg0 (by decide) (by decide)]
  rw [L1_out, L1_keep _ main_v27 (by decide) (by decide), L1_keep _ main_arg0 (by decide) (by decide), L1_keep _ main_arg1 (by decide) (by decide), L1_keep _ main_arg2 (by decide) (by decide),
    L1_keep _ main_arg7 (by decide) (by decide), L1_keep _ main_arg8 (by decide) (by decide)]
  rw [L0_out, L0_keep _ main_arg0 (by decide) (by decide), L0_keep _ main_arg1 (by decide) (by decide), L0_keep _ main_arg2 (by decide) (by decide),
    L0_keep _ main_arg5 (by decide) (by decide), L0_keep _ main_arg6 (by decide) (by decide), L0_keep _ main_arg7 (by decide) (by decide), L0_keep _ main_arg8 (by decide) (by decide)]
  rfl

set_option maxHeartbeats 43600000 in
/-- On every device, from any memory with zero counters: every weakly fair execution of the reference's @main
    terminates with the result at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
        = Cert.ReferenceIdeal.Stage.network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v84).trans (value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Chunks

end
-- ==== Proof.lean ====
/-
  The claim: the word-level kernel program and its idealization run to the end without a fault and leave their
  nine argument arrays unchanged (their @main is ten items in a row, six pallas regions among three gather
  stretches and a final concatenation, each entered at the contents the item before left); so does the reference
  (its run read back); the idealization rewrote nothing; and at the exact instance, from memories agreeing on the
  arguments, both programs return one array: the three-layer network — per layer relu(x·W + b), the neighbours'
  rows, and the mean and the maximum over the 32 neighbours of exp(−10·d)·g minus the row's own features — of the
  nine arguments. The neighbour indices are assumed in range, −100000 ≤ idx < 100000 (a negative index counts from
  the end, as the reference reads it): only there does the reference index inside its array, and there the
  kernel's out-of-range fill never fires, so its gather is the reference's.
-/
import proofs.«419412_j52785148067992_2_alg».proof.Defs
import proofs.«419412_j52785148067992_2_alg».proof.Proof.Gen.Kernel
import proofs.«419412_j52785148067992_2_alg».proof.Proof.Gen.KernelIdeal
import proofs.«419412_j52785148067992_2_alg».proof.Proof.Gen.ReferenceIdeal
import proofs.«419412_j52785148067992_2_alg».proof.Proof.Gen.Pre_finite_inputs
import proofs.«419412_j52785148067992_2_alg».proof.Proof.K.Run
import proofs.«419412_j52785148067992_2_alg».proof.Proof.KI.Run
import proofs.«419412_j52785148067992_2_alg».proof.Proof.Val.Whole
import proofs.«419412_j52785148067992_2_alg».proof.Proof.Ref.RunH
import Idealize.ShloMosaic.Adequacy
import Idealize.ShloMosaic.Init

set_option maxRecDepth 16384

noncomputable section

namespace Cert.Proof

open Idealize.ShloMosaic Idealize.ShloMosaic.TcCoe Idealize.SL.Sem

/-- The word-level kernel program's frame. -/
theorem frame_k : Cert.frame_Kernel := fun m ρ _ => Cert.Kernel.Rgn.frame m ρ

/-- The idealized kernel program's frame. -/
theorem frame_ki : Cert.frame_KernelIdeal := fun m ρ _ => Cert.KernelIdeal.Rgn.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Chunks.run (F := Ideal) m ρ)

/-- The idealization rewrote no operation. -/
theorem preserves : Cert.preserves_Kernel_KernelIdeal := trivial

/-- Both idealized programs return the network of the arguments. -/
theorem algebraic : Cert.algebraic_KernelIdeal_ReferenceIdeal := by
  intro m ρ m' ρ' hpre hagree
  have hidx := fun c i => Cert.KernelIdeal.Val.idx_range_of_pre m hpre c i
  refine ⟨fun c => Cert.ReferenceIdeal.Stage.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨?_, Cert.KernelIdeal.Rgn.args_kept m r.2.mem h c⟩)
      (Cert.KernelIdeal.Rgn.run_all m ρ)
    exact (h c _ (Cert.KernelIdeal.Rgn.mem_uc Cert.KernelIdeal.main_v9 (by decide))).trans (Cert.KernelIdeal.Val.v9_Wend m hidx c)
  · refine (θ_run Cert.ReferenceIdeal.defs _ _).mono (fun r h c => ⟨(h c).1.trans ?_, (h c).2⟩)
      (Cert.ReferenceIdeal.Chunks.run (F := Ideal) m' ρ')
    obtain ⟨h0, h1, h2, h3, h4, h5, h6, h7, h8⟩ := hagree c
    rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
